-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S256x256 : Shape := ⟨2, ![256, 256]⟩
abbrev S256 : Shape := ⟨1, ![256]⟩
abbrev S256x1 : Shape := ⟨2, ![256, 1]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S32x4096x256 .f32) (main_arg1 : FVec F S256x256 .f32) (main_arg2 : FVec F S256 .f32) (main_arg3 : FVec F S256x1 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S32x4096x256 : Shape := ⟨3, ![32, 4096, 256]⟩
abbrev S256x256 : Shape := ⟨2, ![256, 256]⟩
abbrev S256 : Shape := ⟨1, ![256]⟩
abbrev S256x1 : Shape := ⟨2, ![256, 1]⟩
abbrev S1x256 : Shape := ⟨2, ![1, 256]⟩
abbrev S32x256 : Shape := ⟨2, ![32, 256]⟩
abbrev S8x1024x256 : Shape := ⟨3, ![8, 1024, 256]⟩
abbrev S8x256 : Shape := ⟨2, ![8, 256]⟩
abbrev S8x1x1 : Shape := ⟨3, ![8, 1, 1]⟩
abbrev S8x1x256 : Shape := ⟨3, ![8, 1, 256]⟩
abbrev S8x512x256 : Shape := ⟨3, ![8, 512, 256]⟩
abbrev S4096x256 : Shape := ⟨2, ![4096, 256]⟩
abbrev S4096x1 : Shape := ⟨2, ![4096, 1]⟩
abbrev S8x512x1 : Shape := ⟨3, ![8, 512, 1]⟩
abbrev S8x1 : Shape := ⟨2, ![8, 1]⟩

abbrev nBuf : Space → Nat
  | .hbm => 8
  | .vmem => 10
  | .smem => 0
  | _ => 0

abbrev bufTy : (tb : Table) → Fin (tcTables nBuf tb) → BufTy
  | .hbm, ⟨0, _⟩ => ⟨S32x4096x256, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S256x256, .bf16⟩
  | .hbm, ⟨5, _⟩ => ⟨S1x256, .f32⟩
  | .hbm, ⟨6, _⟩ => ⟨S256x1, .bf16⟩
  | .hbm, ⟨7, _⟩ => ⟨S32x256, .f32⟩
  | .local _ .vmem, ⟨0, _⟩ => ⟨S8x1024x256, .f32⟩
  | .local _ .vmem, ⟨1, _⟩ => ⟨S8x1024x256, .f32⟩
  | .local _ .vmem, ⟨2, _⟩ => ⟨S256x256, .bf16⟩
  | .local _ .vmem, ⟨3, _⟩ => ⟨S1x256, .f32⟩
  | .local _ .vmem, ⟨4, _⟩ => ⟨S256x1, .bf16⟩
  | .local _ .vmem, ⟨5, _⟩ => ⟨S8x256, .f32⟩
  | .local _ .vmem, ⟨6, _⟩ => ⟨S8x256, .f32⟩
  | .local _ .vmem, ⟨7, _⟩ => ⟨S8x1x1, .f32⟩
  | .local _ .vmem, ⟨8, _⟩ => ⟨S8x1x1, .f32⟩
  | .local _ .vmem, ⟨9, _⟩ => ⟨S8x1x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t1 : Fin k0_t1_loop.trips) : BitVec 32 :=
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v7 : BitVec 32 := Scalar.muli arg10 c1_i32_4
  let v8 : BitVec 32 := Scalar.addi c0_i32_5 v7
  let c512_i32 : BitVec 32 := 512#32
  let v9 : BitVec 32 := Scalar.muli v8 c512_i32
  v9
def k0_off1 (k0_t1 : Fin k0_t1_loop.trips) : Fin 3 → Nat :=
  let c0 : Index := 0#32
  let c0_i32_5 : BitVec 32 := 0#32
  let c0_i32_1 : BitVec 32 := 0#32
  let c1_i32 : BitVec 32 := 1#32
  let arg10 : BitVec 32 := Scf.iv c0_i32_1 c1_i32 k0_t1
  let c1_i32_4 : BitVec 32 := 1#32
  let v7 : BitVec 32 := Scalar.muli arg10 c1_i32_4
  let v8 : BitVec 32 := Scalar.addi c0_i32_5 v7
  let c512_i32 : BitVec 32 := 512#32
  let v9 : BitVec 32 := Scalar.muli v8 c512_i32
  let v10 : BitVec 32 := v9
  let v11 : Index := Scalar.indexCast v10
  let c0_6 : Index := 0#32
  ![0, v11.toNat, 0]
def k0_cond2 (i : grid0.Coords) : BitVec 1 :=
  let arg1 : BitVec 32 := BitVec.ofNat 32 (i 1).val
  let c3_i32 : BitVec 32 := 3#32
  let v4 : BitVec 1 := Scalar.cmpi .eq arg1 c3_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S256_S1x256 : S256.ShapeCasts S1x256
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  inb_S8x1x256_S8x1x256_0_0_0 : ∀ a, (![0, 0, 0] : Fin 3 → Nat) a + S8x1x256.size a ≤ S8x1x256.size a
  h_S8x1x256 : 0 < S8x1x256.numel
  shapeCasts_S8x1x256_S8x1x256 : S8x1x256.ShapeCasts S8x1x256
  h_S8x512x256 : 0 < S8x512x256.numel
  shapeCasts_S8x512x256_S4096x256 : S8x512x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S4096x1_S8x512x1 : S4096x1.ShapeCasts S8x512x1
  reduces_S8x512x1_S8x1 : S8x512x1.Reduces [1] S8x1
  shapeCasts_S8x1_S8x1x1 : S8x1.ShapeCasts S8x1x1
  broadcasts_S8x1x1_S8x512x1 : S8x1x1.Broadcasts S8x512x1
  shapeCasts_S4096x256_S8x512x256 : S4096x256.ShapeCasts S8x512x256
  broadcasts_S8x1x1_S8x1x256 : S8x1x1.Broadcasts S8x1x256
  shapeCasts_S8x1x256_S8x256 : S8x1x256.ShapeCasts S8x256
  inb_S8x256_S8x256_0_0 : ∀ a, (![0, 0] : Fin 2 → Nat) a + S8x256.size a ≤ S8x256.size a
  h_S8x256 : 0 < S8x256.numel
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  dot_S8x512x1_S8x512x256_S8x1x256_1_1_2_2_0_0_wf : DotDims.WF S8x512x1 S8x512x256 S8x1x256 [1] [1] [2] [2] [0] [0]
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S8x512x256.size a ≤ S8x1024x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x256.size a ≤ S32x4096x256.size a
  hwx0_0 : ∀ i : grid0.Coords, EltTy.bits .f32 = 32 ∨ (Rect.block (s := S32x4096x256) S8x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .bf16 = 32 ∨ (Rect.block (s := S256x1) S256x1.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S32x256.size a
  hwx0_4 : ∀ i : grid0.Coords, EltTy.bits .f32 = 32 ∨ (Rect.block (s := S32x256) S8x256.size (cc0_transform_4 i) (hinb0_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S8x512x1_S8x512x256_S8x1x256_1_1_2_2_0_0 : DotDims S8x512x1 S8x512x256 S8x1x256 where
  lhsContracting := [1]
  rhsContracting := [1]
  lhsNonContracting := [2]
  rhsNonContracting := [2]
  lhsBatch := [0]
  rhsBatch := [0]
  wf := dot_S8x512x1_S8x512x256_S8x1x256_1_1_2_2_0_0_wf

abbrev win0_0 : Pipeline.Window sig grid0 :=
  Pipeline.Window.ofSpec (Memref.whole main_arg0) S8x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x4096x256 : Shape := ⟨3, ![32, 4096, 256]⟩
abbrev S256x256 : Shape := ⟨2, ![256, 256]⟩
abbrev S256 : Shape := ⟨1, ![256]⟩
abbrev S256x1 : Shape := ⟨2, ![256, 1]⟩
abbrev S1x1x256 : Shape := ⟨3, ![1, 1, 256]⟩
abbrev S32x4096x1 : Shape := ⟨3, ![32, 4096, 1]⟩
abbrev S_ : Shape := ⟨0, ![]⟩
abbrev S32x1 : Shape := ⟨2, ![32, 1]⟩
abbrev S32x1x1 : Shape := ⟨3, ![32, 1, 1]⟩
abbrev S32x256 : Shape := ⟨2, ![32, 256]⟩

abbrev nBuf : Space → Nat
  | .hbm => 28
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S32x4096x256, .f32⟩
  | .hbm, ⟨5, _⟩ => ⟨S1x1x256, .f32⟩
  | .hbm, ⟨6, _⟩ => ⟨S32x4096x256, .f32⟩
  | .hbm, ⟨7, _⟩ => ⟨S32x4096x256, .f32⟩
  | .hbm, ⟨8, _⟩ => ⟨S32x4096x256, .f32⟩
  | .hbm, ⟨9, _⟩ => ⟨S32x4096x1, .f32⟩
  | .hbm, ⟨10, _⟩ => ⟨S_, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1x1, .f32⟩
  | .hbm, ⟨16, _⟩ => ⟨S32x4096x1, .f32⟩
  | .hbm, ⟨17, _⟩ => ⟨S32x4096x1, .f32⟩
  | .hbm, ⟨18, _⟩ => ⟨S32x4096x1, .f32⟩
  | .hbm, ⟨19, _⟩ => ⟨S_, .f32⟩
  | .hbm, ⟨20, _⟩ => ⟨S32x1, .f32⟩
  | .hbm, ⟨21, _⟩ => ⟨S32x1x1, .f32⟩
  | .hbm, ⟨22, _⟩ => ⟨S32x4096x1, .f32⟩
  | .hbm, ⟨23, _⟩ => ⟨S32x4096x1, .f32⟩
  | .hbm, ⟨24, _⟩ => ⟨S32x4096x256, .f32⟩
  | .hbm, ⟨25, _⟩ => ⟨S32x4096x256, .f32⟩
  | .hbm, ⟨26, _⟩ => ⟨S_, .f32⟩
  | .hbm, ⟨27, _⟩ => ⟨S32x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S32x4096x256_0_1_2 : S1x1x256.BroadcastsInDim S32x4096x256 (![0, 1, 2] : Fin 3 → Fin S32x4096x256.rank)
  reducesTo_S32x4096x1_S32x1_d1 : S32x4096x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x4096x1_0_1_2 : S32x1x1.BroadcastsInDim S32x4096x1 (![0, 1, 2] : Fin 3 → Fin S32x4096x1.rank)
  bcast_S32x4096x1_S32x4096x256_0_1_2 : S32x4096x1.BroadcastsInDim S32x4096x256 (![0, 1, 2] : Fin 3 → Fin S32x4096x256.rank)
  reducesTo_S32x4096x256_S32x256_d1 : S32x4096x256.ReducesTo [1] S32x256
  dot_S32x4096x256_S256x256_S32x4096x256_2_0_01_1_n_n_wf : DotDims.WF S32x4096x256 S256x256 S32x4096x256 [2] [0] [0, 1] [1] [] []
  dot_S32x4096x256_S256x1_S32x4096x1_2_0_01_1_n_n_wf : DotDims.WF S32x4096x256 S256x1 S32x4096x1 [2] [0] [0, 1] [1] [] []

variable [Facts₀]

def dot_S32x4096x256_S256x256_S32x4096x256_2_0_01_1_n_n : DotDims S32x4096x256 S256x256 S32x4096x256 where
  lhsContracting := [2]
  rhsContracting := [0]
  lhsNonContracting := [0, 1]
  rhsNonContracting := [1]
  lhsBatch := []
  rhsBatch := []
  wf := dot_S32x4096x256_S256x256_S32x4096x256_2_0_01_1_n_n_wf
def dot_S32x4096x256_S256x1_S32x4096x1_2_0_01_1_n_n : DotDims S32x4096x256 S256x1 S32x4096x1 where
  lhsContracting := [2]
  rhsContracting := [0]
  lhsNonContracting := [0, 1]
  rhsNonContracting := [1]
  lhsBatch := []
  rhsBatch := []
  wf := dot_S32x4096x256_S256x1_S32x4096x1_2_0_01_1_n_n_wf

class Facts : Prop extends Facts₀ where

variable [Facts]
-- ==== Proof.KPieces.lean ====
/-
  What one grid step of the pooling kernel leaves in its three carried buffers (running maximum, denominator,
  numerator) and in its output block, as pure functions of what the step finds.

  The body's loop makes two trips over the staged block of 1024 sequence rows, 512 rows each. A trip reads the
  three buffers once and overwrites each whole, so its effect is three functions (stepM, stepL, stepA) of the
  chunk, the parameters and the contents found; the loop is the second trip applied to the first (loopOn).
  At the first step of a batch block the loop starts from the reset values; at the last step the output block is
  the quotient of the loop's numerator by its denominator.
-/
import proofs.«417543_j38482906972715_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Reading back a buffer whose last store filled it whole gives that store's payload. -/
theorem read_writes_cons_whole {sig : RefSig} {κ : Kind} {sp : Space} {S : Shape} {e : EltTy} {Val : EltTy → Type}
    [∀ e, Nonempty (Val e)] (v : View sig κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- The 512 sequence rows trip k of the loop reads from the staged block of 1024. -/
def chunkOf (k : Fin k0_t1_loop.trips) (x0 : Vec F S8x1024x256 .f32) : Vec F S8x512x256 .f32 :=
  View.ld x0 (Rect.unit (s := S8x1024x256) (k0_off1 k) S8x512x256.size (k0_off1_inb k))

/-- One trip's new maximum, from the chunk, the parameters and the running maximum. -/
def stepM (xc : Vec F S8x512x256 .f32) (x1 : Vec F S256x256 .bf16) (x2 : Vec F S1x256 .f32) (x3 : Vec F S256x1 .bf16)
    (m : Vec F S8x1x1 .f32) : Vec F S8x1x1 .f32 :=
  k0_pay6 (k0_pay10 xc x1 x2 x3 m)

/-- One trip's new denominator, from the running maximum and denominator. -/
def stepL (xc : Vec F S8x512x256 .f32) (x1 : Vec F S256x256 .bf16) (x2 : Vec F S1x256 .f32) (x3 : Vec F S256x1 .bf16)
    (m l : Vec F S8x1x1 .f32) : Vec F S8x1x1 .f32 :=
  k0_pay4 (k0_pay13 xc x1 x2 x3 m m l) (k0_pay14 xc x1 x2 x3 m)

/-- One trip's new numerator, from the running maximum and numerator. -/
def stepA (xc : Vec F S8x512x256 .f32) (x1 : Vec F S256x256 .bf16) (x2 : Vec F S1x256 .f32) (x3 : Vec F S256x1 .bf16)
    (m : Vec F S8x1x1 .f32) (acc : Vec F S8x1x256 .f32) : Vec F S8x1x256 .f32 :=
  k0_pay5 (k0_pay8 xc) (k0_pay11 xc x1 x2 x3 m m) (k0_pay12 xc x1 x2 x3 m) acc

theorem trip7 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (x0 : Vec F S8x1024x256 .f32) (x1 : Vec F S256x256 .bf16) (x2 : Vec F S1x256 .f32) (x3 : Vec F S256x1 .bf16) (k : Fin k0_t1_loop.trips) (f7 : BufTy.Contents (Elt F) arg7.view.ty) (f8 : BufTy.Contents (Elt F) arg8.view.ty) (f9 : BufTy.Contents (Elt F) arg9.view.ty) :
    (trip_k0_t1 (F := F) Variants.none c none i arg2 harg2 arg3 harg3 arg4 harg4 arg5 harg5 arg6 harg6 arg7 harg7 arg8 harg8 arg9 harg9 (harg2.unread x0) (harg3.unread x1) (harg4.unread x2) (harg5.unread x3) k).1 f7 f8 f9
      = [⟨Rect.unit ![0, 0, 0] ![8, 1, 1] inb_S8x1x1_S8x1x1_0_0_0, stepM (chunkOf k x0) x1 x2 x3 (arg7.view.read (Elt F) f7)⟩] := by
  unfold trip_k0_t1
  dsimp only
  sl_unfold_words
  simp only [View.readAt_eq_ld, harg2.read_unread, harg3.read_unread, harg4.read_unread, harg5.read_unread,
    View.ld_unit_zero (S := S8x1x1) hz3, View.ld_unit_zero (S := S256x256) hz2, View.ld_unit_zero (S := S1x256) hz2,
    View.ld_unit_zero (S := S256x1) hz2]
  rfl

theorem trip8 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (x0 : Vec F S8x1024x256 .f32) (x1 : Vec F S256x256 .bf16) (x2 : Vec F S1x256 .f32) (x3 : Vec F S256x1 .bf16) (k : Fin k0_t1_loop.trips) (f7 : BufTy.Contents (Elt F) arg7.view.ty) (f8 : BufTy.Contents (Elt F) arg8.view.ty) (f9 : BufTy.Contents (Elt F) arg9.view.ty) :
    (trip_k0_t1 (F := F) Variants.none c none i arg2 harg2 arg3 harg3 arg4 harg4 arg5 harg5 arg6 harg6 arg7 harg7 arg8 harg8 arg9 harg9 (harg2.unread x0) (harg3.unread x1) (harg4.unread x2) (harg5.unread x3) k).2.1 f7 f8 f9
      = [⟨Rect.unit ![0, 0, 0] ![8, 1, 1] inb_S8x1x1_S8x1x1_0_0_0,
          stepL (chunkOf k x0) x1 x2 x3 (arg7.view.read (Elt F) f7) (arg8.view.read (Elt F) f8)⟩] := by
  unfold trip_k0_t1
  dsimp only
  sl_unfold_words
  simp only [View.readAt_eq_ld, harg2.read_unread, harg3.read_unread, harg4.read_unread, harg5.read_unread,
    View.ld_unit_zero (S := S8x1x1) hz3, View.ld_unit_zero (S := S256x256) hz2, View.ld_unit_zero (S := S1x256) hz2,
    View.ld_unit_zero (S := S256x1) hz2]
  rfl

theorem trip9 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (x0 : Vec F S8x1024x256 .f32) (x1 : Vec F S256x256 .bf16) (x2 : Vec F S1x256 .f32) (x3 : Vec F S256x1 .bf16) (k : Fin k0_t1_loop.trips) (f7 : BufTy.Contents (Elt F) arg7.view.ty) (f8 : BufTy.Contents (Elt F) arg8.view.ty) (f9 : BufTy.Contents (Elt F) arg9.view.ty) :
    (trip_k0_t1 (F := F) Variants.none c none i arg2 harg2 arg3 harg3 arg4 harg4 arg5 harg5 arg6 harg6 arg7 harg7 arg8 harg8 arg9 harg9 (harg2.unread x0) (harg3.unread x1) (harg4.unread x2) (harg5.unread x3) k).2.2.1 f7 f8 f9
      = [⟨Rect.unit ![0, 0, 0] ![8, 1, 256] inb_S8x1x256_S8x1x256_0_0_0,
          stepA (chunkOf k x0) x1 x2 x3 (arg7.view.read (Elt F) f7) (arg9.view.read (Elt F) f9)⟩] := by
  unfold trip_k0_t1
  dsimp only
  sl_unfold_words
  simp only [View.readAt_eq_ld, harg2.read_unread, harg3.read_unread, harg4.read_unread, harg5.read_unread,
    View.ld_unit_zero (S := S8x1x1) hz3, View.ld_unit_zero (S := S8x1x256) hz3, View.ld_unit_zero (S := S256x256) hz2,
    View.ld_unit_zero (S := S1x256) hz2, View.ld_unit_zero (S := S256x1) hz2]
  rfl

/-! ## The loop's two trips -/

theorem trips_eq : k0_t1_loop.trips = 2 := by decide +kernel

/-- The loop's first trip and its second. -/
def kA : Fin k0_t1_loop.trips := ⟨0, by rw [trips_eq]; decide⟩
def kB : Fin k0_t1_loop.trips := ⟨1, by rw [trips_eq]; decide⟩

/-- One trip on the three running quantities together. -/
def tripOn (k : Fin k0_t1_loop.trips) (x0 : Vec F S8x1024x256 .f32) (x1 : Vec F S256x256 .bf16) (x2 : Vec F S1x256 .f32)
    (x3 : Vec F S256x1 .bf16) (s : Vec F S8x1x1 .f32 × Vec F S8x1x1 .f32 × Vec F S8x1x256 .f32) :
    Vec F S8x1x1 .f32 × Vec F S8x1x1 .f32 × Vec F S8x1x256 .f32 :=
  (stepM (chunkOf k x0) x1 x2 x3 s.1, stepL (chunkOf k x0) x1 x2 x3 s.1 s.2.1, stepA (chunkOf k x0) x1 x2 x3 s.1 s.2.2)

/-- The whole loop on the three running quantities: the first trip, then the second. -/
def loopOn (x0 : Vec F S8x1024x256 .f32) (x1 : Vec F S256x256 .bf16) (x2 : Vec F S1x256 .f32) (x3 : Vec F S256x1 .bf16)
    (s : Vec F S8x1x1 .f32 × Vec F S8x1x1 .f32 × Vec F S8x1x256 .f32) :
    Vec F S8x1x1 .f32 × Vec F S8x1x1 .f32 × Vec F S8x1x256 .f32 :=
  tripOn kB x0 x1 x2 x3 (tripOn kA x0 x1 x2 x3 s)

/-- The stores of the first trip, from the contents the loop finds. -/
theorem pb_one (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (x0 : Vec F S8x1024x256 .f32) (x1 : Vec F S256x256 .bf16) (x2 : Vec F S1x256 .f32) (x3 : Vec F S256x1 .bf16) (G7 : BufTy.Contents (Elt F) arg7.view.ty) (G8 : BufTy.Contents (Elt F) arg8.view.ty) (G9 : BufTy.Contents (Elt F) arg9.view.ty) :
    (pb_k0_t1 (F := F) Variants.none c none i arg2 harg2 arg3 harg3 arg4 harg4 arg5 harg5 arg6 harg6 arg7 harg7 arg8 harg8 arg9 harg9 (harg2.unread x0) (harg3.unread x1) (harg4.unread x2) (harg5.unread x3) G7 G8 G9 1)
      = ([⟨Rect.unit ![0, 0, 0] ![8, 1, 1] inb_S8x1x1_S8x1x1_0_0_0, (tripOn kA x0 x1 x2 x3 (arg7.view.read (Elt F) G7, arg8.view.read (Elt F) G8, arg9.view.read (Elt F) G9)).1⟩],
         [⟨Rect.unit ![0, 0, 0] ![8, 1, 1] inb_S8x1x1_S8x1x1_0_0_0, (tripOn kA x0 x1 x2 x3 (arg7.view.read (Elt F) G7, arg8.view.read (Elt F) G8, arg9.view.read (Elt F) G9)).2.1⟩],
         [⟨Rect.unit ![0, 0, 0] ![8, 1, 256] inb_S8x1x256_S8x1x256_0_0_0, (tripOn kA x0 x1 x2 x3 (arg7.view.read (Elt F) G7, arg8.view.read (Elt F) G8, arg9.view.read (Elt F) G9)).2.2⟩]) := by
  refine (pb_k0_t1_succ (F := F) Variants.none c none i arg2 harg2 arg3 harg3 arg4 harg4 arg5 harg5 arg6 harg6 arg7 harg7 arg8 harg8 arg9 harg9 (harg2.unread x0) (harg3.unread x1) (harg4.unread x2) (harg5.unread x3) G7 G8 G9 kA).trans ?_
  rw [show (pb_k0_t1 (F := F) Variants.none c none i arg2 harg2 arg3 harg3 arg4 harg4 arg5 harg5 arg6 harg6 arg7 harg7 arg8 harg8 arg9 harg9 (harg2.unread x0) (harg3.unread x1) (harg4.unread x2) (harg5.unread x3) G7 G8 G9 kA.val) = ([], [], []) from rfl]
  dsimp only [tripL_k0_t1, View.writes_nil]
  rw [trip7, trip8, trip9]
  rfl

/-- The stores of both trips (the later one first): the second trip reads what the first one left. -/
theorem pb_two (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (x0 : Vec F S8x1024x256 .f32) (x1 : Vec F S256x256 .bf16) (x2 : Vec F S1x256 .f32) (x3 : Vec F S256x1 .bf16) (G7 : BufTy.Contents (Elt F) arg7.view.ty) (G8 : BufTy.Contents (Elt F) arg8.view.ty) (G9 : BufTy.Contents (Elt F) arg9.view.ty) :
    (pb_k0_t1 (F := F) Variants.none c none i arg2 harg2 arg3 harg3 arg4 harg4 arg5 harg5 arg6 harg6 arg7 harg7 arg8 harg8 arg9 harg9 (harg2.unread x0) (harg3.unread x1) (harg4.unread x2) (harg5.unread x3) G7 G8 G9 2)
      = ([⟨Rect.unit ![0, 0, 0] ![8, 1, 1] inb_S8x1x1_S8x1x1_0_0_0, (loopOn x0 x1 x2 x3 (arg7.view.read (Elt F) G7, arg8.view.read (Elt F) G8, arg9.view.read (Elt F) G9)).1⟩,
          ⟨Rect.unit ![0, 0, 0] ![8, 1, 1] inb_S8x1x1_S8x1x1_0_0_0, (tripOn kA x0 x1 x2 x3 (arg7.view.read (Elt F) G7, arg8.view.read (Elt F) G8, arg9.view.read (Elt F) G9)).1⟩],
         [⟨Rect.unit ![0, 0, 0] ![8, 1, 1] inb_S8x1x1_S8x1x1_0_0_0, (loopOn x0 x1 x2 x3 (arg7.view.read (Elt F) G7, arg8.view.read (Elt F) G8, arg9.view.read (Elt F) G9)).2.1⟩,
          ⟨Rect.unit ![0, 0, 0] ![8, 1, 1] inb_S8x1x1_S8x1x1_0_0_0, (tripOn kA x0 x1 x2 x3 (arg7.view.read (Elt F) G7, arg8.view.read (Elt F) G8, arg9.view.read (Elt F) G9)).2.1⟩],
         [⟨Rect.unit ![0, 0, 0] ![8, 1, 256] inb_S8x1x256_S8x1x256_0_0_0, (loopOn x0 x1 x2 x3 (arg7.view.read (Elt F) G7, arg8.view.read (Elt F) G8, arg9.view.read (Elt F) G9)).2.2⟩,
          ⟨Rect.unit ![0, 0, 0] ![8, 1, 256] inb_S8x1x256_S8x1x256_0_0_0, (tripOn kA x0 x1 x2 x3 (arg7.view.read (Elt F) G7, arg8.view.read (Elt F) G8, arg9.view.read (Elt F) G9)).2.2⟩]) := by
  refine (pb_k0_t1_succ (F := F) Variants.none c none i arg2 harg2 arg3 harg3 arg4 harg4 arg5 harg5 arg6 harg6 arg7 harg7 arg8 harg8 arg9 harg9 (harg2.unread x0) (harg3.unread x1) (harg4.unread x2) (harg5.unread x3) G7 G8 G9 kB).trans ?_
  rw [show kB.val = 1 from rfl, pb_one]
  dsimp only [tripL_k0_t1]
  rw [trip7, trip8, trip9]
  rw [read_writes_cons_whole _ _ hz3, read_writes_cons_whole _ _ hz3, read_writes_cons_whole _ _ hz3]
  rfl

/-! ## What each case of the body leaves -/

theorem trips_eq' : Scf.trips (0#32) (Scalar.addi 0#32 2#32) 1#32 = 2 := by decide +kernel

theorem sout_A_0 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (hc0 : cond0_0 i) (hc1 : ¬cond0_1 i) (x0 : Vec F S8x1024x256 .f32) (x1 : Vec F S256x256 .bf16) (x2 : Vec F S1x256 .f32) (x3 : Vec F S256x1 .bf16)  :
    sout0_A_0 c i arg2 harg2 arg3 harg3 arg4 harg4 arg5 harg5 arg6 harg6 arg7 harg7 arg8 harg8 arg9 harg9 hc0 hc1 x0 x1 x2 x3
      = (loopOn x0 x1 x2 x3 (k0_pay1 (F := F), k0_pay2 (F := F), k0_pay3 (F := F))).1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 )]
  unfold kernelRun0_A
  dsimp only
  sl_unfold_words
  rw [trips_eq', pb_two]
  dsimp only
  rw [List.cons_append, View.canon_cons_unit_zero hz3]
  rw [read_writes_cons_whole _ _ hz3, read_writes_cons_whole _ _ hz3, read_writes_cons_whole _ _ hz3]

theorem sout_B_0 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (hc0 : ¬cond0_0 i) (hc1 : ¬cond0_1 i) (x0 : Vec F S8x1024x256 .f32) (x1 : Vec F S256x256 .bf16) (x2 : Vec F S1x256 .f32) (x3 : Vec F S256x1 .bf16) (xs0 : Vec F S8x1x1 .f32) (xs1 : Vec F S8x1x1 .f32) (xs2 : Vec F S8x1x256 .f32) :
    sout0_B_0 c i arg2 harg2 arg3 harg3 arg4 harg4 arg5 harg5 arg6 harg6 arg7 harg7 arg8 harg8 arg9 harg9 hc0 hc1 x0 x1 x2 x3 xs0 xs1 xs2
      = (loopOn x0 x1 x2 x3 (xs0, xs1, xs2)).1 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only

  rw [trips_eq', pb_two]
  dsimp only
  rw [View.canon_cons_unit_zero hz3]
  rw [harg7.read_unread, harg8.read_unread, harg9.read_unread]

theorem sout_C_0 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (hc0 : ¬cond0_0 i) (hc1 : cond0_1 i) (x0 : Vec F S8x1024x256 .f32) (x1 : Vec F S256x256 .bf16) (x2 : Vec F S1x256 .f32) (x3 : Vec F S256x1 .bf16) (xs0 : Vec F S8x1x1 .f32) (xs1 : Vec F S8x1x1 .f32) (xs2 : Vec F S8x1x256 .f32) :
    sout0_C_0 c i arg2 harg2 arg3 harg3 arg4 harg4 arg5 harg5 arg6 harg6 arg7 harg7 arg8 harg8 arg9 harg9 hc0 hc1 x0 x1 x2 x3 xs0 xs1 xs2
      = (loopOn x0 x1 x2 x3 (xs0, xs1, xs2)).1 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only

  rw [trips_eq', pb_two]
  dsimp only
  rw [View.canon_cons_unit_zero hz3]
  rw [harg7.read_unread, harg8.read_unread, harg9.read_unread]

theorem sout_A_1 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (hc0 : cond0_0 i) (hc1 : ¬cond0_1 i) (x0 : Vec F S8x1024x256 .f32) (x1 : Vec F S256x256 .bf16) (x2 : Vec F S1x256 .f32) (x3 : Vec F S256x1 .bf16)  :
    sout0_A_1 c i arg2 harg2 arg3 harg3 arg4 harg4 arg5 harg5 arg6 harg6 arg7 harg7 arg8 harg8 arg9 harg9 hc0 hc1 x0 x1 x2 x3
      = (loopOn x0 x1 x2 x3 (k0_pay1 (F := F), k0_pay2 (F := F), k0_pay3 (F := F))).2.1 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 )]
  unfold kernelRun0_A
  dsimp only
  sl_unfold_words
  rw [trips_eq', pb_two]
  dsimp only
  rw [List.cons_append, View.canon_cons_unit_zero hz3]
  rw [read_writes_cons_whole _ _ hz3, read_writes_cons_whole _ _ hz3, read_writes_cons_whole _ _ hz3]

theorem sout_B_1 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (hc0 : ¬cond0_0 i) (hc1 : ¬cond0_1 i) (x0 : Vec F S8x1024x256 .f32) (x1 : Vec F S256x256 .bf16) (x2 : Vec F S1x256 .f32) (x3 : Vec F S256x1 .bf16) (xs0 : Vec F S8x1x1 .f32) (xs1 : Vec F S8x1x1 .f32) (xs2 : Vec F S8x1x256 .f32) :
    sout0_B_1 c i arg2 harg2 arg3 harg3 arg4 harg4 arg5 harg5 arg6 harg6 arg7 harg7 arg8 harg8 arg9 harg9 hc0 hc1 x0 x1 x2 x3 xs0 xs1 xs2
      = (loopOn x0 x1 x2 x3 (xs0, xs1, xs2)).2.1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only

  rw [trips_eq', pb_two]
  dsimp only
  rw [View.canon_cons_unit_zero hz3]
  rw [harg7.read_unread, harg8.read_unread, harg9.read_unread]

theorem sout_C_1 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (hc0 : ¬cond0_0 i) (hc1 : cond0_1 i) (x0 : Vec F S8x1024x256 .f32) (x1 : Vec F S256x256 .bf16) (x2 : Vec F S1x256 .f32) (x3 : Vec F S256x1 .bf16) (xs0 : Vec F S8x1x1 .f32) (xs1 : Vec F S8x1x1 .f32) (xs2 : Vec F S8x1x256 .f32) :
    sout0_C_1 c i arg2 harg2 arg3 harg3 arg4 harg4 arg5 harg5 arg6 harg6 arg7 harg7 arg8 harg8 arg9 harg9 hc0 hc1 x0 x1 x2 x3 xs0 xs1 xs2
      = (loopOn x0 x1 x2 x3 (xs0, xs1, xs2)).2.1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only

  rw [trips_eq', pb_two]
  dsimp only
  rw [View.canon_cons_unit_zero hz3]
  rw [harg7.read_unread, harg8.read_unread, harg9.read_unread]

theorem sout_A_2 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (hc0 : cond0_0 i) (hc1 : ¬cond0_1 i) (x0 : Vec F S8x1024x256 .f32) (x1 : Vec F S256x256 .bf16) (x2 : Vec F S1x256 .f32) (x3 : Vec F S256x1 .bf16)  :
    sout0_A_2 c i arg2 harg2 arg3 harg3 arg4 harg4 arg5 harg5 arg6 harg6 arg7 harg7 arg8 harg8 arg9 harg9 hc0 hc1 x0 x1 x2 x3
      = (loopOn x0 x1 x2 x3 (k0_pay1 (F := F), k0_pay2 (F := F), k0_pay3 (F := F))).2.2 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3 )]
  unfold kernelRun0_A
  dsimp only
  sl_unfold_words
  rw [trips_eq', pb_two]
  dsimp only
  rw [List.cons_append, View.canon_cons_unit_zero hz3]
  rw [read_writes_cons_whole _ _ hz3, read_writes_cons_whole _ _ hz3, read_writes_cons_whole _ _ hz3]

theorem sout_B_2 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (hc0 : ¬cond0_0 i) (hc1 : ¬cond0_1 i) (x0 : Vec F S8x1024x256 .f32) (x1 : Vec F S256x256 .bf16) (x2 : Vec F S1x256 .f32) (x3 : Vec F S256x1 .bf16) (xs0 : Vec F S8x1x1 .f32) (xs1 : Vec F S8x1x1 .f32) (xs2 : Vec F S8x1x256 .f32) :
    sout0_B_2 c i arg2 harg2 arg3 harg3 arg4 harg4 arg5 harg5 arg6 harg6 arg7 harg7 arg8 harg8 arg9 harg9 hc0 hc1 x0 x1 x2 x3 xs0 xs1 xs2
      = (loopOn x0 x1 x2 x3 (xs0, xs1, xs2)).2.2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only

  rw [trips_eq', pb_two]
  dsimp only
  rw [View.canon_cons_unit_zero hz3]
  rw [harg7.read_unread, harg8.read_unread, harg9.read_unread]

theorem sout_C_2 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (hc0 : ¬cond0_0 i) (hc1 : cond0_1 i) (x0 : Vec F S8x1024x256 .f32) (x1 : Vec F S256x256 .bf16) (x2 : Vec F S1x256 .f32) (x3 : Vec F S256x1 .bf16) (xs0 : Vec F S8x1x1 .f32) (xs1 : Vec F S8x1x1 .f32) (xs2 : Vec F S8x1x256 .f32) :
    sout0_C_2 c i arg2 harg2 arg3 harg3 arg4 harg4 arg5 harg5 arg6 harg6 arg7 harg7 arg8 harg8 arg9 harg9 hc0 hc1 x0 x1 x2 x3 xs0 xs1 xs2
      = (loopOn x0 x1 x2 x3 (xs0, xs1, xs2)).2.2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only

  rw [trips_eq', pb_two]
  dsimp only
  rw [View.canon_cons_unit_zero hz3]
  rw [harg7.read_unread, harg8.read_unread, harg9.read_unread]

theorem out_C_4 (c : Dev nD) (i : grid0.Coords) (arg2 : Memref sig .tc .vmem S8x1024x256 .f32) (harg2 : arg2.IsWhole) (arg3 : Memref sig .tc .vmem S256x256 .bf16) (harg3 : arg3.IsWhole) (arg4 : Memref sig .tc .vmem S1x256 .f32) (harg4 : arg4.IsWhole) (arg5 : Memref sig .tc .vmem S256x1 .bf16) (harg5 : arg5.IsWhole) (arg6 : Memref sig .tc .vmem S8x256 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x256 .f32) (harg9 : arg9.IsWhole) (hc0 : ¬cond0_0 i) (hc1 : cond0_1 i) (x0 : Vec F S8x1024x256 .f32) (x1 : Vec F S256x256 .bf16) (x2 : Vec F S1x256 .f32) (x3 : Vec F S256x1 .bf16) (xs0 : Vec F S8x1x1 .f32) (xs1 : Vec F S8x1x1 .f32) (xs2 : Vec F S8x1x256 .f32) :
    out0_C_4 c i arg2 harg2 arg3 harg3 arg4 harg4 arg5 harg5 arg6 harg6 arg7 harg7 arg8 harg8 arg9 harg9 hc0 hc1 x0 x1 x2 x3 xs0 xs1 xs2
      = k0_pay7 (loopOn x0 x1 x2 x3 (xs0, xs1, xs2)).2.2 (loopOn x0 x1 x2 x3 (xs0, xs1, xs2)).2.1 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [show Scf.trips k0_t1_loop.lb k0_t1_loop.ub k0_t1_loop.st = 2 from trips_eq, pb_two]
  dsimp only
  rw [View.canon_unit_zero hz2]
  simp only [View.readAt_eq_ld, read_writes_cons_whole (S := S8x1x256) _ _ hz3, read_writes_cons_whole (S := S8x1x1) _ _ hz3, View.ld_unit_zero (S := S8x1x256) hz3,
    View.ld_unit_zero (S := S8x1x1) hz3, harg7.read_unread, harg8.read_unread, harg9.read_unread]

end Cert.KernelIdeal.Pieces

end
-- ==== Proof.LibSoftmaxMerge.lean ====
/-
  Softmax merge algebra on the extended reals.

  A softmax over a finite key set can be computed blockwise: each block S carries its
  maximum (top σ S), its shifted denominator den σ S (top σ S) = ∑_{j∈S} exp (σ j - top σ S)
  and its shifted numerator num σ ν S (top σ S) = ∑_{j∈S} exp (σ j - top σ S) * ν j.
  Two blocks are joined by rescaling each to the common maximum; this file proves that the
  joined state is the state of the union, for real-valued scores and values, with the
  extended-real exponential Ideal.exp (exp ⊥ = 0, exp ⊤ = ⊤, exp ↑r = ↑(Real.exp r)).

  Method throughout: choose real witnesses for the scores and values, prove the identity in
  ℝ (Real.exp_add, distributivity of finite sums), and push the coercion ℝ → EReal
  through sums, products and differences.
-/
import Idealize.ShloMosaic.PureOps.Ideal
import Mathlib.Data.EReal.Basic
import Mathlib.Data.EReal.Operations
import Mathlib.Analysis.SpecialFunctions.Exp
import Mathlib.Algebra.BigOperators.Group.Finset.Basic
import Mathlib.Algebra.BigOperators.Ring.Finset
import Mathlib.Data.Finset.Lattice.Fold

open Idealize.ShloMosaic
open scoped BigOperators

namespace Cert.Hand.SoftmaxMerge

/-! ### The three quantities of a block -/

/-- The maximum score of a block (⊥ for the empty block). -/
noncomputable def top {J : Type*} (σ : J → EReal) (S : Finset J) : EReal := S.sup σ

/-- The denominator of a block, shifted by M: ∑_{j∈S} exp (σ j - M). -/
noncomputable def den {J : Type*} (σ : J → EReal) (S : Finset J) (M : EReal) : EReal :=
  ∑ j ∈ S, Ideal.exp (σ j - M)

/-- The numerator of a block, shifted by M: ∑_{j∈S} exp (σ j - M) * ν j. -/
noncomputable def num {J : Type*} (σ ν : J → EReal) (S : Finset J) (M : EReal) : EReal :=
  ∑ j ∈ S, Ideal.exp (σ j - M) * ν j

/-! ### Coercion helpers -/

/-- The coercion ℝ → EReal commutes with finite sums. -/
theorem coe_sum {J : Type*} [DecidableEq J] (S : Finset J) (f : J → ℝ) :
    ((∑ j ∈ S, f j : ℝ) : EReal) = ∑ j ∈ S, (f j : EReal) := by
  induction S using Finset.induction_on with
  | empty => simp
  | insert a s ha ih => rw [Finset.sum_insert ha, Finset.sum_insert ha, EReal.coe_add, ih]

/-- The coercion ℝ → EReal commutes with max. -/
theorem coe_max (a b : ℝ) : ((max a b : ℝ) : EReal) = max (a : EReal) (b : EReal) :=
  EReal.coe_strictMono.monotone.map_max

/-- exp of a difference of two reals, at the extended reals. -/
theorem exp_coe_sub (a b : ℝ) :
    Ideal.exp ((a : EReal) - (b : EReal)) = ((Real.exp (a - b) : ℝ) : EReal) := by
  rw [← EReal.coe_sub, Ideal.exp_coe]

/-- A real-valued family is the coercion of a real family. -/
theorem exists_real_fun {J : Type*} (σ : J → EReal) (hσ : ∀ j, ∃ r : ℝ, σ j = (r : EReal)) :
    ∃ s : J → ℝ, σ = fun j => (s j : EReal) := by
  choose s hs using hσ
  exact ⟨s, funext hs⟩

/-- The denominator of a real-valued block at a real shift, as a real sum. -/
theorem den_coe {J : Type*} [DecidableEq J] (s : J → ℝ) (S : Finset J) (M : ℝ) :
    den (fun j => (s j : EReal)) S (M : EReal)
      = ((∑ j ∈ S, Real.exp (s j - M) : ℝ) : EReal) := by
  unfold den
  rw [coe_sum]
  exact Finset.sum_congr rfl (fun j _ => exp_coe_sub (s j) M)

/-- The numerator of a real-valued block at a real shift, as a real sum. -/
theorem num_coe {J : Type*} [DecidableEq J] (s v : J → ℝ) (S : Finset J) (M : ℝ) :
    num (fun j => (s j : EReal)) (fun j => (v j : EReal)) S (M : EReal)
      = ((∑ j ∈ S, Real.exp (s j - M) * v j : ℝ) : EReal) := by
  unfold num
  rw [coe_sum]
  refine Finset.sum_congr rfl (fun j _ => ?_)
  rw [exp_coe_sub, ← EReal.coe_mul]

/-! ### (A) The maximum -/

/-- The maximum of a nonempty real-valued block is real. -/
theorem top_real {J : Type*} [DecidableEq J] (σ : J → EReal)
    (hσ : ∀ j, ∃ r : ℝ, σ j = (r : EReal)) (S : Finset J) (hS : S.Nonempty) :
    ∃ r : ℝ, top σ S = (r : EReal) := by
  obtain ⟨i, _, hi⟩ := Finset.exists_mem_eq_sup S hS σ
  obtain ⟨r, hr⟩ := hσ i
  exact ⟨r, by rw [top, hi, hr]⟩

/-- The maximum of a union is the larger of the two maxima. -/
theorem top_union {J : Type*} [DecidableEq J] (σ : J → EReal) (S T : Finset J) :
    top σ (S ∪ T) = max (top σ S) (top σ T) := by
  unfold top
  exact Finset.sup_union

/-- The maximum of the empty block is ⊥. -/
theorem top_empty {J : Type*} (σ : J → EReal) : top σ (∅ : Finset J) = ⊥ := by
  unfold top
  exact Finset.sup_empty

/-! ### (B) Denominator and numerator are real at a real shift -/

/-- The denominator of a real-valued block at a real shift is real. -/
theorem den_real {J : Type*} [DecidableEq J] (σ : J → EReal)
    (hσ : ∀ j, ∃ r : ℝ, σ j = (r : EReal)) (S : Finset J) (M : ℝ) :
    ∃ r : ℝ, den σ S (M : EReal) = (r : EReal) := by
  obtain ⟨s, rfl⟩ := exists_real_fun σ hσ
  exact ⟨_, den_coe s S M⟩

/-- The numerator of a real-valued block at a real shift is real. -/
theorem num_real {J : Type*} [DecidableEq J] (σ ν : J → EReal)
    (hσ : ∀ j, ∃ r : ℝ, σ j = (r : EReal)) (hν : ∀ j, ∃ r : ℝ, ν j = (r : EReal))
    (S : Finset J) (M : ℝ) :
    ∃ r : ℝ, num σ ν S (M : EReal) = (r : EReal) := by
  obtain ⟨s, rfl⟩ := exists_real_fun σ hσ
  obtain ⟨v, rfl⟩ := exists_real_fun ν hν
  exact ⟨_, num_coe s v S M⟩

/-! ### Rescaling a block and splitting a union -/

/-- Rescaling a denominator from the real shift a to the real shift c:
    (∑ exp (σ j - a)) * exp (a - c) = ∑ exp (σ j - c). -/
theorem den_rescale {J : Type*} [DecidableEq J] (σ : J → EReal)
    (hσ : ∀ j, ∃ r : ℝ, σ j = (r : EReal)) (S : Finset J) (a c : ℝ) :
    den σ S (a : EReal) * Ideal.exp ((a : EReal) - (c : EReal)) = den σ S (c : EReal) := by
  obtain ⟨s, rfl⟩ := exists_real_fun σ hσ
  rw [den_coe, den_coe, exp_coe_sub, ← EReal.coe_mul, Finset.sum_mul]
  congr 1
  refine Finset.sum_congr rfl (fun j _ => ?_)
  rw [← Real.exp_add]
  congr 1
  ring

/-- Rescaling a numerator from the real shift a to the real shift c:
    (∑ exp (σ j - a) * ν j) * exp (a - c) = ∑ exp (σ j - c) * ν j. -/
theorem num_rescale {J : Type*} [DecidableEq J] (σ ν : J → EReal)
    (hσ : ∀ j, ∃ r : ℝ, σ j = (r : EReal)) (hν : ∀ j, ∃ r : ℝ, ν j = (r : EReal))
    (S : Finset J) (a c : ℝ) :
    num σ ν S (a : EReal) * Ideal.exp ((a : EReal) - (c : EReal)) = num σ ν S (c : EReal) := by
  obtain ⟨s, rfl⟩ := exists_real_fun σ hσ
  obtain ⟨v, rfl⟩ := exists_real_fun ν hν
  rw [num_coe, num_coe, exp_coe_sub, ← EReal.coe_mul, Finset.sum_mul]
  congr 1
  refine Finset.sum_congr rfl (fun j _ => ?_)
  have h : Real.exp (s j - c) = Real.exp (s j - a) * Real.exp (a - c) := by
    rw [← Real.exp_add]
    congr 1
    ring
  rw [h]
  ring

/-- The denominator of a disjoint union, at one common shift, is the sum of the two. -/
theorem den_union {J : Type*} [DecidableEq J] (σ : J → EReal) (S T : Finset J)
    (hST : Disjoint S T) (M : EReal) :
    den σ S M + den σ T M = den σ (S ∪ T) M := by
  unfold den
  exact (Finset.sum_union hST).symm

/-- The numerator of a disjoint union, at one common shift, is the sum of the two. -/
theorem num_union {J : Type*} [DecidableEq J] (σ ν : J → EReal) (S T : Finset J)
    (hST : Disjoint S T) (M : EReal) :
    num σ ν S M + num σ ν T M = num σ ν (S ∪ T) M := by
  unfold num
  exact (Finset.sum_union hST).symm

/-- The denominator of the empty block is 0. -/
theorem den_empty {J : Type*} (σ : J → EReal) (M : EReal) : den σ (∅ : Finset J) M = 0 := by
  unfold den
  exact Finset.sum_empty

/-- The numerator of the empty block is 0. -/
theorem num_empty {J : Type*} (σ ν : J → EReal) (M : EReal) :
    num σ ν (∅ : Finset J) M = 0 := by
  unfold num
  exact Finset.sum_empty

/-! ### (C) Merge of two partial results -/

/-- Tree merge of denominators: each block rescaled from its own maximum to the common
    maximum, then added, is the denominator of the union at the common maximum. -/
theorem den_merge {J : Type*} [DecidableEq J] (σ : J → EReal)
    (hσ : ∀ j, ∃ r : ℝ, σ j = (r : EReal)) (S T : Finset J)
    (hS : S.Nonempty) (hT : T.Nonempty) (hST : Disjoint S T) :
    den σ S (top σ S) * Ideal.exp (top σ S - max (top σ S) (top σ T))
        + den σ T (top σ T) * Ideal.exp (top σ T - max (top σ S) (top σ T))
      = den σ (S ∪ T) (max (top σ S) (top σ T)) := by
  obtain ⟨a, ha⟩ := top_real σ hσ S hS
  obtain ⟨b, hb⟩ := top_real σ hσ T hT
  rw [ha, hb, ← coe_max, den_rescale σ hσ S, den_rescale σ hσ T, den_union σ S T hST]

/-- Tree merge of numerators: each block rescaled from its own maximum to the common
    maximum, then added, is the numerator of the union at the common maximum. -/
theorem num_merge {J : Type*} [DecidableEq J] (σ ν : J → EReal)
    (hσ : ∀ j, ∃ r : ℝ, σ j = (r : EReal)) (hν : ∀ j, ∃ r : ℝ, ν j = (r : EReal))
    (S T : Finset J) (hS : S.Nonempty) (hT : T.Nonempty) (hST : Disjoint S T) :
    num σ ν S (top σ S) * Ideal.exp (top σ S - max (top σ S) (top σ T))
        + num σ ν T (top σ T) * Ideal.exp (top σ T - max (top σ S) (top σ T))
      = num σ ν (S ∪ T) (max (top σ S) (top σ T)) := by
  obtain ⟨a, ha⟩ := top_real σ hσ S hS
  obtain ⟨b, hb⟩ := top_real σ hσ T hT
  rw [ha, hb, ← coe_max, num_rescale σ ν hσ hν S, num_rescale σ ν hσ hν T,
    num_union σ ν S T hST]

/-- Merge of denominators at arbitrary real shifts a, b (one per block) and c (common). -/
theorem den_merge_at {J : Type*} [DecidableEq J] (σ : J → EReal)
    (hσ : ∀ j, ∃ r : ℝ, σ j = (r : EReal)) (S T : Finset J) (hST : Disjoint S T)
    (a b c : ℝ) :
    den σ S (a : EReal) * Ideal.exp ((a : EReal) - (c : EReal))
        + den σ T (b : EReal) * Ideal.exp ((b : EReal) - (c : EReal))
      = den σ (S ∪ T) (c : EReal) := by
  rw [den_rescale σ hσ S, den_rescale σ hσ T, den_union σ S T hST]

/-- Merge of numerators at arbitrary real shifts a, b (one per block) and c (common). -/
theorem num_merge_at {J : Type*} [DecidableEq J] (σ ν : J → EReal)
    (hσ : ∀ j, ∃ r : ℝ, σ j = (r : EReal)) (hν : ∀ j, ∃ r : ℝ, ν j = (r : EReal))
    (S T : Finset J) (hST : Disjoint S T) (a b c : ℝ) :
    num σ ν S (a : EReal) * Ideal.exp ((a : EReal) - (c : EReal))
        + num σ ν T (b : EReal) * Ideal.exp ((b : EReal) - (c : EReal))
      = num σ ν (S ∪ T) (c : EReal) := by
  rw [num_rescale σ ν hσ hν S, num_rescale σ ν hσ hν T, num_union σ ν S T hST]

/-! ### (D) One step of the sequential pass -/

/-- Online step for the denominator: the running state rescaled from the old maximum to the
    new one, plus the new block taken directly at the new maximum. -/
theorem den_online {J : Type*} [DecidableEq J] (σ : J → EReal)
    (hσ : ∀ j, ∃ r : ℝ, σ j = (r : EReal)) (S T : Finset J)
    (hS : S.Nonempty) (hT : T.Nonempty) (hST : Disjoint S T) :
    den σ S (top σ S) * Ideal.exp (top σ S - max (top σ S) (top σ T))
        + den σ T (max (top σ S) (top σ T))
      = den σ (S ∪ T) (max (top σ S) (top σ T)) := by
  obtain ⟨a, ha⟩ := top_real σ hσ S hS
  obtain ⟨b, hb⟩ := top_real σ hσ T hT
  rw [ha, hb, ← coe_max, den_rescale σ hσ S, den_union σ S T hST]

/-- Online step for the numerator: the running state rescaled from the old maximum to the
    new one, plus the new block taken directly at the new maximum. -/
theorem num_online {J : Type*} [DecidableEq J] (σ ν : J → EReal)
    (hσ : ∀ j, ∃ r : ℝ, σ j = (r : EReal)) (hν : ∀ j, ∃ r : ℝ, ν j = (r : EReal))
    (S T : Finset J) (hS : S.Nonempty) (hT : T.Nonempty) (hST : Disjoint S T) :
    num σ ν S (top σ S) * Ideal.exp (top σ S - max (top σ S) (top σ T))
        + num σ ν T (max (top σ S) (top σ T))
      = num σ ν (S ∪ T) (max (top σ S) (top σ T)) := by
  obtain ⟨a, ha⟩ := top_real σ hσ S hS
  obtain ⟨b, hb⟩ := top_real σ hσ T hT
  rw [ha, hb, ← coe_max, num_rescale σ ν hσ hν S, num_union σ ν S T hST]

/-! ### (E) The first step, from the empty state (⊥, 0, 0) -/

/-- From the empty state the new maximum is the block's own maximum. -/
theorem top_first {J : Type*} (σ : J → EReal) (T : Finset J) :
    max (⊥ : EReal) (top σ T) = top σ T :=
  max_bot_left _

/-- In the extended reals ⊥ - m = ⊥, so the rescaling factor of the empty state is
    exp ⊥ = 0. -/
theorem exp_bot_sub (m : EReal) : Ideal.exp ((⊥ : EReal) - m) = 0 := by
  rw [EReal.bot_sub, Ideal.exp_bot]

/-- First online step for the denominator: the empty state contributes nothing. -/
theorem den_first {J : Type*} (σ : J → EReal) (T : Finset J) :
    (0 : EReal) * Ideal.exp ((⊥ : EReal) - max (⊥ : EReal) (top σ T))
        + den σ T (max (⊥ : EReal) (top σ T))
      = den σ T (top σ T) := by
  rw [top_first, zero_mul, zero_add]

/-- First online step for the numerator: the empty state contributes nothing. -/
theorem num_first {J : Type*} (σ ν : J → EReal) (T : Finset J) :
    (0 : EReal) * Ideal.exp ((⊥ : EReal) - max (⊥ : EReal) (top σ T))
        + num σ ν T (max (⊥ : EReal) (top σ T))
      = num σ ν T (top σ T) := by
  rw [top_first, zero_mul, zero_add]

/-! ### (F) Pulling a real scale out of a contraction -/

/-- A real factor on the left operand of a finite contraction comes out of the sum
    (over any finite index set). -/
theorem scale_out_finset {D : Type*} [DecidableEq D] (a b : D → EReal)
    (ha : ∀ d, ∃ r : ℝ, a d = (r : EReal)) (hb : ∀ d, ∃ r : ℝ, b d = (r : EReal))
    (S : Finset D) (κ : ℝ) :
    ∑ d ∈ S, (a d * (κ : EReal)) * b d = (∑ d ∈ S, a d * b d) * (κ : EReal) := by
  obtain ⟨x, rfl⟩ := exists_real_fun a ha
  obtain ⟨y, rfl⟩ := exists_real_fun b hb
  have h1 : ∀ d, ((x d : EReal) * (κ : EReal)) * (y d : EReal) = ((x d * κ * y d : ℝ) : EReal) := by
    intro d
    rw [EReal.coe_mul, EReal.coe_mul]
  have h2 : ∀ d, (x d : EReal) * (y d : EReal) = ((x d * y d : ℝ) : EReal) := by
    intro d
    rw [EReal.coe_mul]
  rw [Finset.sum_congr rfl (fun d _ => h1 d), Finset.sum_congr rfl (fun d _ => h2 d),
    ← coe_sum, ← coe_sum, ← EReal.coe_mul, Finset.sum_mul]
  congr 1
  refine Finset.sum_congr rfl (fun d _ => ?_)
  ring

/-- A real factor on the left operand of a contraction over a finite type comes out of
    the sum. -/
theorem scale_out {D : Type*} [Fintype D] [DecidableEq D] (a b : D → EReal)
    (ha : ∀ d, ∃ r : ℝ, a d = (r : EReal)) (hb : ∀ d, ∃ r : ℝ, b d = (r : EReal)) (κ : ℝ) :
    ∑ d, (a d * (κ : EReal)) * b d = (∑ d, a d * b d) * (κ : EReal) :=
  scale_out_finset a b ha hb Finset.univ κ

/-- The same with the scale given as a real-valued extended real. -/
theorem scale_out' {D : Type*} [Fintype D] [DecidableEq D] (a b : D → EReal)
    (ha : ∀ d, ∃ r : ℝ, a d = (r : EReal)) (hb : ∀ d, ∃ r : ℝ, b d = (r : EReal))
    (κ : EReal) (hκ : ∃ r : ℝ, κ = (r : EReal)) :
    ∑ d, (a d * κ) * b d = (∑ d, a d * b d) * κ := by
  obtain ⟨k, rfl⟩ := hκ
  exact scale_out a b ha hb k

/-- The same with the real factor on the right operand. -/
theorem scale_out_right {D : Type*} [Fintype D] [DecidableEq D] (a b : D → EReal)
    (ha : ∀ d, ∃ r : ℝ, a d = (r : EReal)) (hb : ∀ d, ∃ r : ℝ, b d = (r : EReal)) (κ : ℝ) :
    ∑ d, a d * (b d * (κ : EReal)) = (∑ d, a d * b d) * (κ : EReal) := by
  rw [← scale_out a b ha hb κ]
  refine Finset.sum_congr rfl (fun d _ => ?_)
  rw [← mul_assoc, mul_right_comm]

end Cert.Hand.SoftmaxMerge

/-- info: 'Cert.Hand.SoftmaxMerge.den_merge' depends on axioms: [propext, Classical.choice, Quot.sound] -/
#guard_msgs in #print axioms Cert.Hand.SoftmaxMerge.den_merge

/-- info: 'Cert.Hand.SoftmaxMerge.num_merge' depends on axioms: [propext, Classical.choice, Quot.sound] -/
#guard_msgs in #print axioms Cert.Hand.SoftmaxMerge.num_merge

/-- info: 'Cert.Hand.SoftmaxMerge.den_online' depends on axioms: [propext, Classical.choice, Quot.sound] -/
#guard_msgs in #print axioms Cert.Hand.SoftmaxMerge.den_online

/-- info: 'Cert.Hand.SoftmaxMerge.num_online' depends on axioms: [propext, Classical.choice, Quot.sound] -/
#guard_msgs in #print axioms Cert.Hand.SoftmaxMerge.num_online

/-- info: 'Cert.Hand.SoftmaxMerge.den_first' depends on axioms: [propext, Classical.choice, Quot.sound] -/
#guard_msgs in #print axioms Cert.Hand.SoftmaxMerge.den_first

/-- info: 'Cert.Hand.SoftmaxMerge.num_first' depends on axioms: [propext, Classical.choice, Quot.sound] -/
#guard_msgs in #print axioms Cert.Hand.SoftmaxMerge.num_first

/-- info: 'Cert.Hand.SoftmaxMerge.scale_out' depends on axioms: [propext, Classical.choice, Quot.sound] -/
#guard_msgs in #print axioms Cert.Hand.SoftmaxMerge.scale_out

/-- info: 'Cert.Hand.SoftmaxMerge.scale_out_right' depends on axioms: [propext, Classical.choice, Quot.sound] -/
#guard_msgs in #print axioms Cert.Hand.SoftmaxMerge.scale_out_right

/-- info: 'Cert.Hand.SoftmaxMerge.den_merge_at' depends on axioms: [propext, Classical.choice, Quot.sound] -/
#guard_msgs in #print axioms Cert.Hand.SoftmaxMerge.den_merge_at

/-- info: 'Cert.Hand.SoftmaxMerge.num_merge_at' depends on axioms: [propext, Classical.choice, Quot.sound] -/
#guard_msgs in #print axioms Cert.Hand.SoftmaxMerge.num_merge_at
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

/-!
# Finite extended reals, and the algebra of a two-relation mean-aggregating graph layer

General lemmas over `EReal`.

* `IsReal x`: the extended real `x` is (the image of) a real number; closure under the ring
  operations, `max`, finite sums.
* Distributivity `x * (a + b) = x * a + x * b` holds on the finite extended reals (it fails at
  `x = ⊤, a = 1, b = -1`), hence `∑ X (A + B) = ∑ X A + ∑ X B` for finite families.
* Reassociations of the sums that make up one output entry of a layer whose node type has one,
  respectively two, incoming relations.
* Division by a nonzero real is the product with the quotient `1 / r`.
* Gathering from, and scatter-adding into, an everywhere finite array gives an everywhere finite
  array.
-/

namespace Cert.LibERealSage

open Idealize.ShloMosaic

/-! ### Finite extended reals -/

/-- An extended real is *real* (finite) when it is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- The sum of two real extended reals is real. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real extended reals is real. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The negation of a real extended real is real. -/
theorem isReal_neg {x : EReal} (hx : IsReal x) : IsReal (-x) := by
  obtain ⟨a, rfl⟩ := hx
  exact ⟨-a, (EReal.coe_neg a).symm⟩

/-- The maximum of two real extended reals is real. -/
theorem isReal_max {x y : EReal} (hx : IsReal x) (hy : IsReal y) : IsReal (max x y) := by
  rcases le_total x y with h | h
  · rw [max_eq_right h]; exact hy
  · rw [max_eq_left h]; exact hx

/-- `max x 0` is real when `x` is. -/
theorem isReal_max_zero {x : EReal} (hx : IsReal x) : IsReal (max x 0) :=
  isReal_max hx isReal_zero

/-- A finite sum of real extended reals is real. -/
theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

/-- A sum over a whole finite type of real extended reals is real. -/
theorem isReal_sum_univ {ι : Type*} [Fintype ι] (f : ι → EReal) (h : ∀ i, IsReal (f i)) :
    IsReal (∑ i, f i) :=
  isReal_sum Finset.univ f (fun i _ => h i)

/-- An extended real is real exactly when it is neither infinity. -/
theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

/-! ### Distributivity on the finite extended reals -/

/-- Multiplication distributes over addition when all three extended reals are real. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

/-- A contraction against a sum of two finite families is the sum of the two contractions, when
    the contracted family is finite too. -/
theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

/-- One output entry of a layer whose node type has ONE incoming relation: the neighbour term,
    the root term and the bias, summed in two different orders. No finiteness is needed. -/
theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

/-- One output entry of a layer whose node type has TWO incoming relations: on one side the two
    neighbour terms, ONE root term against the sum of the two root matrices and the sum of the
    two biases; on the other side the two relations' (neighbour, bias, root) triples added in
    turn. Needs the root features and the two root matrices finite. -/
theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

/-- `one_rel_entry` under `max · 0`. -/
theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

/-- `two_rel_entry` under `max · 0`. -/
theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

/-! ### Division by a nonzero real -/

/-- Division by a nonzero real is the product with the quotient `1 / r`, at the infinities
    too. -/
theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

/-- The quotient `1 / r` by a nonzero real is real. -/
theorem isReal_div_one {r : ℝ} (hr : r ≠ 0) :
    IsReal (Idealize.ShloMosaic.Ideal.div 1 (r : EReal)) :=
  ⟨1 / r, by rw [Ideal.div_coe hr, one_mul]⟩

/-- The quotient of a real by a nonzero real is real. -/
theorem isReal_div {s : EReal} (hs : IsReal s) {r : ℝ} (hr : r ≠ 0) :
    IsReal (Idealize.ShloMosaic.Ideal.div s (r : EReal)) := by
  rw [Ideal.div_coe hr]
  exact isReal_mul hs (isReal_coe _)

/-- `max c 1` of a real `c` is a real number that is at least one. -/
theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

/-- `max c 1` of a real `c` is a nonzero real number. -/
theorem isReal_max_one (c : EReal) (hc : IsReal c) :
    ∃ r : ℝ, r ≠ 0 ∧ max c 1 = (r : EReal) := by
  obtain ⟨r, h1, h⟩ := isReal_max_one' c hc
  exact ⟨r, by linarith, h⟩

/-! ### Finiteness through a gather and an accumulating scatter -/

/-- Every element of a gather from an everywhere real array is real. -/
theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

/-- Every element of an accumulating scatter of everywhere real updates into an everywhere real
    array is real. -/
theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.Spec.lean ====
/-
  Attention pooling over a sequence, on the extended reals.

  For one batch row the layer scores each of the 4096 sequence rows,
    score s = ∑ e, tanh (∑ d, x s d * W d e + β e) * v e,
  and returns, for each feature d, the softmax-weighted mean of x s d:
    pooled d = (∑ s, exp (score s - M) * x s d) / (∑ s, exp (score s - M)),   M = max over s of score s.
  The numerator and the denominator are LibSoftmaxMerge's `num` and `den` of the whole row set at its own
  maximum `top`. This file states the result as one function `G` of the four argument arrays, index by index,
  and the facts both programs are compared through: the sequence is cut into 8 chunks of 512 rows; the three
  running quantities (maximum, denominator, numerator) over the rows before chunk k become those over the rows
  before chunk k + 1 by one rescaling step; from the empty state (⊥, 0, 0) eight steps reach the whole row set.
-/
import Idealize.ShloMosaic.PureOps.Ideal
import Idealize.ShloMosaic.Lib.ValueIdx
import Mathlib.Data.Finset.Lattice.Fold
import Mathlib.Algebra.BigOperators.Fin
import Mathlib.Analysis.SpecialFunctions.Exp
import proofs.«417543_j38482906972715_3_alg».proof.Proof.LibSoftmaxMerge
import proofs.«417543_j38482906972715_3_alg».proof.Proof.LibERealSage

noncomputable section

open scoped BigOperators

namespace Cert.Hand.Pool

open Idealize.ShloMosaic Idealize.ShloMosaic.ValueIdx Cert.Hand.SoftmaxMerge Cert.LibERealSage

/-! ## The shapes of the arguments and of the result -/

abbrev SX : Shape := ⟨3, ![32, 4096, 256]⟩
abbrev SW : Shape := ⟨2, ![256, 256]⟩
abbrev SB : Shape := ⟨1, ![256]⟩
abbrev SV : Shape := ⟨2, ![256, 1]⟩
abbrev SO : Shape := ⟨2, ![32, 256]⟩

/-! ## The result as one function of the arguments -/

/-- The score of one row of 256 features: tanh of the affine image, contracted against the column v. -/
def logit (W : SW.Idx → EReal) (β : SB.Idx → EReal) (v : SV.Idx → EReal) (row : Fin 256 → EReal) : EReal :=
  ∑ e : Fin 256, Ideal.tanh ((∑ d : Fin 256, row d * W (ix2 d e)) + β (ix1 e)) * v (ix2 e 0)

/-- The score of sequence row s of batch row b. -/
def score (X : SX.Idx → EReal) (W : SW.Idx → EReal) (β : SB.Idx → EReal) (v : SV.Idx → EReal)
    (b : Fin 32) (s : Fin 4096) : EReal :=
  logit W β v (fun d => X (ix3 b s d))

/-- Feature d of batch row b along the sequence. -/
def feat (X : SX.Idx → EReal) (b : Fin 32) (d : Fin 256) (s : Fin 4096) : EReal := X (ix3 b s d)

/-- The softmax-weighted mean of ν under the scores σ: numerator over denominator, both shifted by the
    largest score. -/
def pooled (σ ν : Fin 4096 → EReal) : EReal :=
  Ideal.div (num σ ν Finset.univ (top σ Finset.univ)) (den σ Finset.univ (top σ Finset.univ))

/-- The layer's result: entry (b, d) is the pooled feature d of batch row b. -/
def G (X : SX.Idx → EReal) (W : SW.Idx → EReal) (β : SB.Idx → EReal) (v : SV.Idx → EReal) : SO.Idx → EReal :=
  fun i => pooled (score X W β v (i 0)) (feat X (i 0) (i 1))

/-! ## Real entries stay real -/

/-- tanh of a real is real. -/
theorem isReal_tanh {x : EReal} (hx : IsReal x) : IsReal (Ideal.tanh x) := by
  obtain ⟨r, rfl⟩ := hx
  exact ⟨Real.tanh r, rfl⟩

/-- exp of a real is real. -/
theorem isReal_exp {x : EReal} (hx : IsReal x) : IsReal (Ideal.exp x) := by
  obtain ⟨r, rfl⟩ := hx
  exact ⟨Real.exp r, rfl⟩

/-- The score of a real row under real parameters is real. -/
theorem isReal_logit {W : SW.Idx → EReal} {β : SB.Idx → EReal} {v : SV.Idx → EReal} {row : Fin 256 → EReal}
    (hW : ∀ i, IsReal (W i)) (hβ : ∀ i, IsReal (β i)) (hv : ∀ i, IsReal (v i)) (hrow : ∀ d, IsReal (row d)) :
    IsReal (logit W β v row) :=
  isReal_sum_univ _ fun e => isReal_mul
    (isReal_tanh (isReal_add (isReal_sum_univ _ fun d => isReal_mul (hrow d) (hW _)) (hβ _))) (hv _)

/-- Every score of a real input under real parameters is real. -/
theorem score_real {X : SX.Idx → EReal} {W : SW.Idx → EReal} {β : SB.Idx → EReal} {v : SV.Idx → EReal}
    (hX : ∀ i, IsReal (X i)) (hW : ∀ i, IsReal (W i)) (hβ : ∀ i, IsReal (β i)) (hv : ∀ i, IsReal (v i))
    (b : Fin 32) (s : Fin 4096) : ∃ r : ℝ, score X W β v b s = (r : EReal) :=
  isReal_logit hW hβ hv fun d => hX _

/-- Every feature of a real input is real. -/
theorem feat_real {X : SX.Idx → EReal} (hX : ∀ i, IsReal (X i)) (b : Fin 32) (d : Fin 256) (s : Fin 4096) :
    ∃ r : ℝ, feat X b d s = (r : EReal) := hX _

/-! ## The sequence cut into 8 chunks of 512 rows -/

/-- The sequence rows before row n. -/
def below (n : ℕ) : Finset (Fin 4096) := Finset.univ.filter fun s => s.val < n

/-- The rows of chunk k: 512 k ≤ s < 512 (k + 1). -/
def chunk (k : ℕ) : Finset (Fin 4096) := Finset.univ.filter fun s => 512 * k ≤ s.val ∧ s.val < 512 * (k + 1)

/-- Row r of chunk k. -/
def chunkRow (k : ℕ) (hk : k < 8) (r : Fin 512) : Fin 4096 := ⟨512 * k + r.val, by have := r.isLt; omega⟩

theorem below_zero : below 0 = ∅ := by
  unfold below; exact Finset.filter_false_of_mem fun s _ => Nat.not_lt_zero _

theorem below_full : below 4096 = Finset.univ := by
  unfold below; exact Finset.filter_true_of_mem fun s _ => s.isLt

/-- The rows before chunk k + 1 are the rows before chunk k together with chunk k. -/
theorem below_step (k : ℕ) : below (512 * (k + 1)) = below (512 * k) ∪ chunk k := by
  ext s
  simp only [below, chunk, Finset.mem_union, Finset.mem_filter, Finset.mem_univ, true_and]
  omega

theorem below_disjoint (k : ℕ) : Disjoint (below (512 * k)) (chunk k) := by
  rw [Finset.disjoint_left]
  intro s hs ht
  simp only [below, chunk, Finset.mem_filter, Finset.mem_univ, true_and] at hs ht
  omega

theorem chunkRow_mem (k : ℕ) (hk : k < 8) (r : Fin 512) : chunkRow k hk r ∈ chunk k := by
  have := r.isLt
  simp only [chunk, chunkRow, Finset.mem_filter, Finset.mem_univ, true_and]
  omega

theorem chunk_nonempty (k : ℕ) (hk : k < 8) : (chunk k).Nonempty :=
  ⟨chunkRow k hk ⟨0, by decide⟩, chunkRow_mem k hk _⟩

theorem chunkRow_injective (k : ℕ) (hk : k < 8) : Function.Injective (chunkRow k hk) := by
  intro a b h
  have := congrArg Fin.val h
  simp only [chunkRow] at this
  exact Fin.ext (by omega)

/-- Chunk k is the image of its 512 rows. -/
theorem chunk_eq_image (k : ℕ) (hk : k < 8) :
    chunk k = (Finset.univ : Finset (Fin 512)).map ⟨chunkRow k hk, chunkRow_injective k hk⟩ := by
  ext s
  simp only [Finset.mem_map, Finset.mem_univ, true_and, Function.Embedding.coeFn_mk]
  constructor
  · intro hs
    simp only [chunk, Finset.mem_filter, Finset.mem_univ, true_and] at hs
    exact ⟨⟨s.val - 512 * k, by omega⟩, Fin.ext (by simp only [chunkRow]; omega)⟩
  · rintro ⟨r, rfl⟩
    exact chunkRow_mem k hk r

/-- A sum over the 512 rows of chunk k is the sum over the chunk. -/
theorem sum_chunk (k : ℕ) (hk : k < 8) (f : Fin 4096 → EReal) :
    ∑ r : Fin 512, f (chunkRow k hk r) = ∑ s ∈ chunk k, f s := by
  rw [chunk_eq_image k hk, Finset.sum_map]
  rfl

/-- A fold of max from ⊥ over a finite set is the set's largest value: Finset.sup is that fold with ⊔, and
    on the extended reals ⊔ is max. -/
theorem fold_max_eq_top {J : Type*} [DecidableEq J] (S : Finset J) (f : J → EReal) :
    S.fold max ⊥ f = top f S := by
  induction S using Finset.induction_on with
  | empty => rw [Finset.fold_empty, top_empty]
  | insert a s ha ih =>
    rw [Finset.fold_insert ha, ih]
    unfold top
    rw [Finset.sup_insert]

/-- The maximum over the 512 rows of chunk k, folded from ⊥, is the chunk's largest score. -/
theorem fold_max_chunk (k : ℕ) (hk : k < 8) (f : Fin 4096 → EReal) :
    (Finset.univ : Finset (Fin 512)).fold max ⊥ (fun r => f (chunkRow k hk r)) = top f (chunk k) := by
  rw [chunk_eq_image k hk, ← fold_max_eq_top, Finset.fold_map]
  rfl

/-! ## The three running quantities and one rescaling step -/

/-- The largest score among the rows before n (⊥ when there is none). -/
def runMax (σ : Fin 4096 → EReal) (n : ℕ) : EReal := top σ (below n)

/-- The denominator over the rows before n, shifted by their largest score. -/
def runDen (σ : Fin 4096 → EReal) (n : ℕ) : EReal := den σ (below n) (top σ (below n))

/-- The numerator over the rows before n, shifted by their largest score. -/
def runNum (σ ν : Fin 4096 → EReal) (n : ℕ) : EReal := num σ ν (below n) (top σ (below n))

theorem runMax_zero (σ : Fin 4096 → EReal) : runMax σ 0 = ⊥ := by
  unfold runMax; rw [below_zero]; exact top_empty σ

theorem runDen_zero (σ : Fin 4096 → EReal) : runDen σ 0 = 0 := by
  unfold runDen; rw [below_zero]; exact den_empty σ _

theorem runNum_zero (σ ν : Fin 4096 → EReal) : runNum σ ν 0 = 0 := by
  unfold runNum; rw [below_zero]; exact num_empty σ ν _

/-- One step of the maximum: the larger of the running maximum and the chunk's own. -/
theorem runMax_step (σ : Fin 4096 → EReal) (k : ℕ) :
    max (runMax σ (512 * k)) (top σ (chunk k)) = runMax σ (512 * (k + 1)) := by
  unfold runMax; rw [below_step, top_union]

/-- One step of the denominator: the running one rescaled from the old maximum to the new, plus the chunk's
    taken at the new maximum. From the empty state the rescaling factor is exp ⊥ = 0 against 0. -/
theorem runDen_step (σ : Fin 4096 → EReal) (hσ : ∀ s, ∃ r : ℝ, σ s = (r : EReal)) (k : ℕ) (hk : k < 8) :
    Ideal.exp (runMax σ (512 * k) - runMax σ (512 * (k + 1))) * runDen σ (512 * k)
        + den σ (chunk k) (runMax σ (512 * (k + 1)))
      = runDen σ (512 * (k + 1)) := by
  unfold runDen runMax
  rw [below_step k, top_union]
  rcases (below (512 * k)).eq_empty_or_nonempty with h | h
  · -- no row yet: the old maximum is ⊥, the old denominator 0, and the union is the chunk itself
    rw [h, top_empty, den_empty, mul_zero, zero_add, Finset.empty_union, top_first]
  · rw [mul_comm (Ideal.exp _)]
    exact den_online σ hσ _ _ h (chunk_nonempty k hk) (below_disjoint k)

/-- One step of the numerator, likewise. -/
theorem runNum_step (σ ν : Fin 4096 → EReal) (hσ : ∀ s, ∃ r : ℝ, σ s = (r : EReal))
    (hν : ∀ s, ∃ r : ℝ, ν s = (r : EReal)) (k : ℕ) (hk : k < 8) :
    Ideal.exp (runMax σ (512 * k) - runMax σ (512 * (k + 1))) * runNum σ ν (512 * k)
        + num σ ν (chunk k) (runMax σ (512 * (k + 1)))
      = runNum σ ν (512 * (k + 1)) := by
  unfold runNum runMax
  rw [below_step k, top_union]
  rcases (below (512 * k)).eq_empty_or_nonempty with h | h
  · -- no row yet: the old maximum is ⊥, the old numerator 0, and the union is the chunk itself
    rw [h, top_empty, num_empty, mul_zero, zero_add, Finset.empty_union, top_first]
  · rw [mul_comm (Ideal.exp _)]
    exact num_online σ ν hσ hν _ _ h (chunk_nonempty k hk) (below_disjoint k)

/-- After the eighth chunk the running quantities are those of the whole sequence. -/
theorem pooled_eq_run (σ ν : Fin 4096 → EReal) :
    pooled σ ν = Ideal.div (runNum σ ν (512 * 8)) (runDen σ (512 * 8)) := by
  unfold pooled runNum runDen
  rw [show 512 * 8 = 4096 from rfl, below_full]

/-! ## The reference's form of the result -/

/-- The softmax weights, each the shifted exponential over the sum of all of them, contracted against ν, are
    the pooled value: with real scores the largest score M is real and the sum Z of the shifted exponentials
    is a positive real, so dividing by Z is multiplying by 1 / Z, and
    ∑ s, (exp (σ s - M) * (1 / Z)) * ν s = (∑ s, exp (σ s - M) * ν s) * (1 / Z). -/
theorem pooled_eq_mean (σ ν : Fin 4096 → EReal) (hσ : ∀ s, ∃ r : ℝ, σ s = (r : EReal))
    (hν : ∀ s, ∃ r : ℝ, ν s = (r : EReal)) :
    (0 : EReal) + ∑ s : Fin 4096,
        Ideal.div (Ideal.exp (σ s - top σ Finset.univ))
          ((0 : EReal) + ∑ s' : Fin 4096, Ideal.exp (σ s' - top σ Finset.univ)) * ν s
      = pooled σ ν := by
  obtain ⟨M, hM⟩ := top_real σ hσ Finset.univ Finset.univ_nonempty
  obtain ⟨a, rfl⟩ := exists_real_fun σ hσ
  obtain ⟨v, rfl⟩ := exists_real_fun ν hν
  obtain ⟨Z, hZdef⟩ : ∃ Z : ℝ, Z = ∑ j : Fin 4096, Real.exp (a j - M) := ⟨_, rfl⟩
  have hZ : Z ≠ 0 := by
    rw [hZdef]
    exact ne_of_gt (Finset.sum_pos (fun j _ => Real.exp_pos _) Finset.univ_nonempty)
  have hden : den (fun j => ((a j : ℝ) : EReal)) Finset.univ (M : EReal) = ((Z : ℝ) : EReal) := by
    rw [den_coe, hZdef]
  have hsum : (∑ s' : Fin 4096, Ideal.exp (((a s' : ℝ) : EReal) - (M : EReal))) = ((Z : ℝ) : EReal) := hden
  unfold pooled
  rw [hM, hden, num_coe, Ideal.div_coe hZ, ← EReal.coe_mul, Finset.sum_mul, coe_sum]
  simp only [zero_add]
  rw [hsum]
  refine Finset.sum_congr rfl fun j _ => ?_
  rw [Ideal.div_coe hZ, exp_coe_sub, ← EReal.coe_mul, ← EReal.coe_mul, mul_right_comm]

end Cert.Hand.Pool

end
-- ==== Proof.KStep.lean ====
/-
  One chunk of the kernel's loop body, read entry by entry on the extended reals.

  For a chunk xc of 8 batch rows × 512 sequence rows × 256 features, the weights w, the bias row bv and the
  column vv, and the running maximum m, denominator l and numerator acc of each batch row:
    the chunk's scores    σ p r = ∑ e, tanh (∑ d, xc p r d * w d e + bv e) * vv e,
    the new maximum       m' p  = max (m p) (max over r of σ p r),
    the rescaling factor  a p   = exp (m p - m' p),
    the weights           q p r = exp (σ p r - m' p),
    the new denominator   a p * l p + ∑ r, q p r,
    the new numerator     a p * acc p d + ∑ r, q p r * xc p r d,
  and at the last grid step the result acc p d / l p.
-/
import proofs.«417543_j38482906972715_3_alg».proof.Proof.Gen.KernelIdeal.Skeleton
import proofs.«417543_j38482906972715_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Step

open Cert.KernelIdeal Cert.KernelIdeal.Gen Idealize.ShloMosaic Idealize.ShloMosaic.ValueIdx Cert.Hand.Pool

/-! ## Small readings at explicit coordinates -/

/-- The f32 pattern of -∞ reads ⊥. -/
theorem ofBits_negInf_f32 : Ideal.ofBits .f32 0xFF800000#32 = ⊥ := by simp [Ideal.ofBits, Ideal.ieee]

/-- Row r of batch row p in the flattened chunk: 512 p + r. -/
def flatRow (p : Fin 8) (r : Fin 512) : Fin 4096 :=
  ⟨512 * p.val + r.val, by have := p.isLt; have := r.isLt; omega⟩

section Layout
variable {α : Type}

/-- Flattening [8,512,256] to [4096,256]: entry (512 p + r, d) is entry (p, r, d). -/
theorem cast_flat_apply (x : S8x512x256.Idx → α) (h : S8x512x256.ShapeCasts S4096x256)
    (p : Fin 8) (r : Fin 512) (d : Fin 256) :
    shapeCast S4096x256 x h (ix2 (flatRow p r) d) = x (ix3 p r d) := by
  refine shapeCast_apply x h _ (ix3 p r d) ?_
  rw [Shape.rowMajor_val_three, Shape.rowMajor_val_two]
  show (p.val * 512 + r.val) * 256 + d.val = (512 * p.val + r.val) * 256 + d.val
  omega

/-- Unflattening [4096,256] to [8,512,256]: entry (p, r, d) is entry (512 p + r, d). -/
theorem cast_unflat_apply (x : S4096x256.Idx → α) (h : S4096x256.ShapeCasts S8x512x256)
    (p : Fin 8) (r : Fin 512) (d : Fin 256) :
    shapeCast S8x512x256 x h (ix3 p r d) = x (ix2 (flatRow p r) d) := by
  refine shapeCast_apply x h _ (ix2 (flatRow p r) d) ?_
  rw [Shape.rowMajor_val_three, Shape.rowMajor_val_two]
  show (512 * p.val + r.val) * 256 + d.val = (p.val * 512 + r.val) * 256 + d.val
  omega

/-- Unflattening the column [4096,1] to [8,512,1]. -/
theorem cast_unflat_col_apply (x : S4096x1.Idx → α) (h : S4096x1.ShapeCasts S8x512x1)
    (p : Fin 8) (r : Fin 512) :
    shapeCast S8x512x1 x h (ix3 p r 0) = x (ix2 (flatRow p r) 0) := by
  refine shapeCast_apply x h _ (ix2 (flatRow p r) 0) ?_
  rw [Shape.rowMajor_val_three, Shape.rowMajor_val_two]
  show (512 * p.val + r.val) * 1 + 0 = (p.val * 512 + r.val) * 1 + 0
  omega

/-- [8,1] viewed [8,1,1]. -/
theorem cast_col_apply (x : S8x1.Idx → α) (h : S8x1.ShapeCasts S8x1x1) (p : Fin 8) :
    shapeCast S8x1x1 x h (ix3 p 0 0) = x (ix2 p 0) := by
  refine shapeCast_apply x h _ (ix2 p 0) ?_
  rw [Shape.rowMajor_val_three, Shape.rowMajor_val_two]
  show p.val * 1 + 0 = (p.val * 1 + 0) * 1 + 0
  omega

/-- [8,1,256] viewed [8,256]. -/
theorem cast_squeeze_apply (x : S8x1x256.Idx → α) (h : S8x1x256.ShapeCasts S8x256) (p : Fin 8) (d : Fin 256) :
    shapeCast S8x256 x h (ix2 p d) = x (ix3 p 0 d) := by
  refine shapeCast_apply x h _ (ix3 p 0 d) ?_
  rw [Shape.rowMajor_val_three, Shape.rowMajor_val_two]
  show (p.val * 1 + 0) * 256 + d.val = p.val * 256 + d.val
  omega

/-- The row [1,256] repeated down 4096 rows. -/
theorem bcast_rows_apply (x : S1x256.Idx → α) (h : S1x256.Broadcasts S4096x256) (s : Fin 4096) (e : Fin 256) :
    broadcastTo S4096x256 x h (ix2 s e) = x (ix2 0 e) := by
  refine broadcastTo_apply x h _ (ix2 0 e) fun a => ?_
  match a with
  | ⟨0, _⟩ => rfl
  | ⟨1, _⟩ => rfl

/-- One value per batch row repeated along the 512 sequence rows. -/
theorem bcast_seq_apply (x : S8x1x1.Idx → α) (h : S8x1x1.Broadcasts S8x512x1) (p : Fin 8) (r : Fin 512) :
    broadcastTo S8x512x1 x h (ix3 p r 0) = x (ix3 p 0 0) := by
  refine broadcastTo_apply x h _ (ix3 p 0 0) fun a => ?_
  match a with
  | ⟨0, _⟩ => rfl
  | ⟨1, _⟩ => rfl
  | ⟨2, _⟩ => rfl

/-- One value per batch row repeated along the 256 features. -/
theorem bcast_feat_apply (x : S8x1x1.Idx → α) (h : S8x1x1.Broadcasts S8x1x256) (p : Fin 8) (d : Fin 256) :
    broadcastTo S8x1x256 x h (ix3 p 0 d) = x (ix3 p 0 0) := by
  refine broadcastTo_apply x h _ (ix3 p 0 0) fun a => ?_
  match a with
  | ⟨0, _⟩ => rfl
  | ⟨1, _⟩ => rfl
  | ⟨2, _⟩ => rfl

end Layout

/-! ## The two reductions over the sequence rows of a chunk -/

/-- The index the reduction over axis 1 reads at batch row p and sequence row r. -/
theorem lift_seq (h : S8x512x1.Reduces [1] S8x1) (p : Fin 8) (r : Fin 512) :
    h.lift (ix2 p 0) r = ix3 p r 0 := by
  funext a
  refine Fin.ext ?_
  match a with
  | ⟨0, _⟩ => rfl
  | ⟨1, _⟩ => rfl
  | ⟨2, _⟩ => rfl

/-- The maximum over the sequence rows of a chunk, folded from ⊥. -/
theorem rowMax_apply (src : FVec Ideal S8x512x1 .f32) (h : S8x512x1.Reduces [1] S8x1) (hφ : FKind.Formats .f32)
    (hacc : (0xFF800000#32 : BitVec 32) = FKind.maximumf.neutral .f32 hφ) (p : Fin 8) :
    multiReduction (F := Ideal) .maximumf [1] S8x1 src 0xFF800000#32 h hφ hacc (ix2 p 0)
      = (Finset.univ : Finset (Fin 512)).fold max ⊥ (fun r => src (ix3 p r 0)) := by
  refine (Ideal.multiReduction_maximumf_single src _ h hφ hacc (ix2 p 0)).trans ?_
  have hf : (src ∘ h.lift (ix2 p 0)) = fun r : Fin 512 => src (ix3 p r 0) :=
    funext fun r => congrArg src (lift_seq h p r)
  have hb : (FloatOps.ofBits (F := Ideal) .f32 0xFF800000#32 : EReal) = ⊥ := ofBits_negInf_f32
  rw [hf, hb]
  rfl

/-- The sum over the sequence rows of a chunk. -/
theorem rowSum_apply (src : FVec Ideal S8x512x1 .f32) (h : S8x512x1.Reduces [1] S8x1) (hφ : FKind.Formats .f32)
    (hacc : (0x00000000#32 : BitVec 32) = FKind.add.neutral .f32 hφ) (p : Fin 8) :
    multiReduction (F := Ideal) .add [1] S8x1 src 0x00000000#32 h hφ hacc (ix2 p 0)
      = ∑ r : Fin 512, src (ix3 p r 0) := by
  refine (Ideal.multiReduction_add_single src _ h hφ hacc (ix2 p 0)).trans ?_
  exact Finset.sum_congr rfl fun r _ => congrArg src (lift_seq h p r)

/-! ## The three matrix products read at an index

Each has one contracted axis; the contraction index is re-indexed by its one coordinate, and the operand
indices are read axis by axis. -/

theorem lhs_hidden_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_hidden_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_hidden_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_hidden_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product [4096,256] · [256,256] into a zero accumulator: entry (s, e) is ∑ d, A (s, d) * B (d, e). -/
theorem matmul_hidden_apply (A : FVec Ideal S4096x256 .bf16) (B : FVec Ideal S256x256 .bf16) (s : Fin 4096) (e : Fin 256) :
    matmul dot_S4096x256_S256x256_S4096x256_1_0_0_1_n_n none A B (constant (F := Ideal) S4096x256 .f32 0x00000000#32) (ix2 s e)
      = ∑ d : Fin 256, A (ix2 s d) * B (ix2 d e) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 s e) ((contrEquiv1 dot_S4096x256_S256x256_S4096x256_1_0_0_1_n_n 256 rfl rfl).symm k) = ix2 s k := funext fun a => Fin.ext (by
    match a with
    | ⟨0, _⟩ => exact lhs_hidden_0 _ _
    | ⟨1, _⟩ => exact (lhs_hidden_1 _ _).trans hk)
  have er : dot_S4096x256_S256x256_S4096x256_1_0_0_1_n_n.rhsIdx (ix2 s e) ((contrEquiv1 dot_S4096x256_S256x256_S4096x256_1_0_0_1_n_n 256 rfl rfl).symm k) = ix2 k e := funext fun a => Fin.ext (by
    match a with
    | ⟨0, _⟩ => exact (rhs_hidden_0 _ _).trans hk
    | ⟨1, _⟩ => exact rhs_hidden_1 _ _)
  rw [el, er]

theorem lhs_score_0 (i : S4096x1.Idx) (q : dot_S4096x256_S256x1_S4096x1_1_0_0_1_n_n.contr.Idx) :
    (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide), dif_pos (show (0 : Fin S4096x256.rank) ∈ dot_S4096x256_S256x1_S4096x1_1_0_0_1_n_n.lhsNonContracting by decide)]
  rfl
theorem lhs_score_1 (i : S4096x1.Idx) (q : dot_S4096x256_S256x1_S4096x1_1_0_0_1_n_n.contr.Idx) :
    (dot_S4096x256_S256x1_S4096x1_1_0_0_1_n_n.lhsIdx i q 1).val = (q ⟨0, by decide⟩).val :=
  dot_S4096x256_S256x1_S4096x1_1_0_0_1_n_n.lhsIdx_val_of_single rfl i q
theorem rhs_score_0 (i : S4096x1.Idx) (q : dot_S4096x256_S256x1_S4096x1_1_0_0_1_n_n.contr.Idx) :
    (dot_S4096x256_S256x1_S4096x1_1_0_0_1_n_n.rhsIdx i q 0).val = (q ⟨0, by decide⟩).val :=
  dot_S4096x256_S256x1_S4096x1_1_0_0_1_n_n.rhsIdx_val_of_single rfl i q
theorem rhs_score_1 (i : S4096x1.Idx) (q : dot_S4096x256_S256x1_S4096x1_1_0_0_1_n_n.contr.Idx) :
    (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide), dif_pos (show (1 : Fin S256x1.rank) ∈ dot_S4096x256_S256x1_S4096x1_1_0_0_1_n_n.rhsNonContracting by decide)]
  rfl

/-- The product [4096,256] · [256,1] into a zero accumulator: entry (s, 0) is ∑ e, A (s, e) * B (e, 0). -/
theorem matmul_score_apply (A : FVec Ideal S4096x256 .bf16) (B : FVec Ideal S256x1 .bf16) (s : Fin 4096) :
    matmul dot_S4096x256_S256x1_S4096x1_1_0_0_1_n_n none A B (constant (F := Ideal) S4096x1 .f32 0x00000000#32) (ix2 s 0)
      = ∑ e : Fin 256, A (ix2 s e) * B (ix2 e 0) := by
  simp only [matmul]
  rw [Ideal.matmul_constant_zero_apply, ← Equiv.sum_comp (contrEquiv1 dot_S4096x256_S256x1_S4096x1_1_0_0_1_n_n 256 rfl rfl).symm]
  refine Finset.sum_congr rfl fun k _ => ?_
  have hk := contrEquiv1_symm_val dot_S4096x256_S256x1_S4096x1_1_0_0_1_n_n 256 rfl rfl k
  have el : dot_S4096x256_S256x1_S4096x1_1_0_0_1_n_n.lhsIdx (ix2 s 0) ((contrEquiv1 dot_S4096x256_S256x1_S4096x1_1_0_0_1_n_n 256 rfl rfl).symm k) = ix2 s k := funext fun a => Fin.ext (by
    match a with
    | ⟨0, _⟩ => exact lhs_score_0 _ _
    | ⟨1, _⟩ => exact (lhs_score_1 _ _).trans hk)
  have er : dot_S4096x256_S256x1_S4096x1_1_0_0_1_n_n.rhsIdx (ix2 s 0) ((contrEquiv1 dot_S4096x256_S256x1_S4096x1_1_0_0_1_n_n 256 rfl rfl).symm k) = ix2 k 0 := funext fun a => Fin.ext (by
    match a with
    | ⟨0, _⟩ => exact (rhs_score_0 _ _).trans hk
    | ⟨1, _⟩ => exact rhs_score_1 _ _)
  rw [el, er]

theorem lhs_wsum_0 (i : S8x1x256.Idx) (q : dot_S8x512x1_S8x512x256_S8x1x256_1_1_2_2_0_0.contr.Idx) :
    (dot_S8x512x1_S8x512x256_S8x1x256_1_1_2_2_0_0.lhsIdx i q 0).val = (i 0).val := by
  unfold DotDims.lhsIdx
  rw [dif_pos (show (0 : Fin S8x512x1.rank) ∈ dot_S8x512x1_S8x512x256_S8x1x256_1_1_2_2_0_0.lhsBatch by decide)]
  rfl
theorem lhs_wsum_1 (i : S8x1x256.Idx) (q : dot_S8x512x1_S8x512x256_S8x1x256_1_1_2_2_0_0.contr.Idx) :
    (dot_S8x512x1_S8x512x256_S8x1x256_1_1_2_2_0_0.lhsIdx i q 1).val = (q ⟨0, by decide⟩).val :=
  dot_S8x512x1_S8x512x256_S8x1x256_1_1_2_2_0_0.lhsIdx_val_of_single rfl i q
theorem lhs_wsum_2 (i : S8x1x256.Idx) (q : dot_S8x512x1_S8x512x256_S8x1x256_1_1_2_2_0_0.contr.Idx) :
    (dot_S8x512x1_S8x512x256_S8x1x256_1_1_2_2_0_0.lhsIdx i q 2).val = (i 1).val := by
  unfold DotDims.lhsIdx
  rw [dif_neg (show ¬(2 : Fin S8x512x1.rank) ∈ dot_S8x512x1_S8x512x256_S8x1x256_1_1_2_2_0_0.lhsBatch by decide), dif_pos (show (2 : Fin S8x512x1.rank) ∈ dot_S8x512x1_S8x512x256_S8x1x256_1_1_2_2_0_0.lhsNonContracting by decide)]
  rfl
theorem rhs_wsum_0 (i : S8x1x256.Idx) (q : dot_S8x512x1_S8x512x256_S8x1x256_1_1_2_2_0_0.contr.Idx) :
    (dot_S8x512x1_S8x512x256_S8x1x256_1_1_2_2_0_0.rhsIdx i q 0).val = (i 0).val := by
  unfold DotDims.rhsIdx
  rw [dif_pos (show (0 : Fin S8x512x256.rank) ∈ dot_S8x512x1_S8x512x256_S8x1x256_1_1_2_2_0_0.rhsBatch by decide)]
  rfl
theorem rhs_wsum_1 (i : S8x1x256.Idx) (q : dot_S8x512x1_S8x512x256_S8x1x256_1_1_2_2_0_0.contr.Idx) :
    (dot_S8x512x1_S8x512x256_S8x1x256_1_1_2_2_0_0.rhsIdx i q 1).val = (q ⟨0, by decide⟩).val :=
  dot_S8x512x1_S8x512x256_S8x1x256_1_1_2_2_0_0.rhsIdx_val_of_single rfl i q
theorem rhs_wsum_2 (i : S8x1x256.Idx) (q : dot_S8x512x1_S8x512x256_S8x1x256_1_1_2_2_0_0.contr.Idx) :
    (dot_S8x512x1_S8x512x256_S8x1x256_1_1_2_2_0_0.rhsIdx i q 2).val = (i 2).val := by
  unfold DotDims.rhsIdx
  rw [dif_neg (show ¬(2 : Fin S8x512x256.rank) ∈ dot_S8x512x1_S8x512x256_S8x1x256_1_1_2_2_0_0.rhsBatch by decide), dif_pos (show (2 : Fin S8x512x256.rank) ∈ dot_S8x512x1_S8x512x256_S8x1x256_1_1_2_2_0_0.rhsNonContracting by decide)]
  rfl

/-- The batched product over the 512 sequence rows, into a zero accumulator: entry (p, 0, d) is
    ∑ r, Q (p, r, 0) * X (p, r, d). -/
theorem matmul_wsum_apply (Q : FVec Ideal S8x512x1 .bf16) (X : FVec Ideal S8x512x256 .bf16) (p : Fin 8) (d : Fin 256) :
    matmul dot_S8x512x1_S8x512x256_S8x1x256_1_1_2_2_0_0 none Q X (constant (F := Ideal) S8x1x256 .f32 0x00000000#32) (ix3 p 0 d)
      = ∑ r : Fin 512, Q (ix3 p r 0) * X (ix3 p r d) := by
  simp only [matmul]
  rw [Ideal.matmul_constant_zero_apply, ← Equiv.sum_comp (contrEquiv1 dot_S8x512x1_S8x512x256_S8x1x256_1_1_2_2_0_0 512 rfl rfl).symm]
  refine Finset.sum_congr rfl fun k _ => ?_
  have hk := contrEquiv1_symm_val dot_S8x512x1_S8x512x256_S8x1x256_1_1_2_2_0_0 512 rfl rfl k
  have el : dot_S8x512x1_S8x512x256_S8x1x256_1_1_2_2_0_0.lhsIdx (ix3 p 0 d) ((contrEquiv1 dot_S8x512x1_S8x512x256_S8x1x256_1_1_2_2_0_0 512 rfl rfl).symm k) = ix3 p k 0 := funext fun a => Fin.ext (by
    match a with
    | ⟨0, _⟩ => exact lhs_wsum_0 _ _
    | ⟨1, _⟩ => exact (lhs_wsum_1 _ _).trans hk
    | ⟨2, _⟩ => exact lhs_wsum_2 _ _)
  have er : dot_S8x512x1_S8x512x256_S8x1x256_1_1_2_2_0_0.rhsIdx (ix3 p 0 d) ((contrEquiv1 dot_S8x512x1_S8x512x256_S8x1x256_1_1_2_2_0_0 512 rfl rfl).symm k) = ix3 p k d := funext fun a => Fin.ext (by
    match a with
    | ⟨0, _⟩ => exact rhs_wsum_0 _ _
    | ⟨1, _⟩ => exact (rhs_wsum_1 _ _).trans hk
    | ⟨2, _⟩ => exact rhs_wsum_2 _ _)
  rw [el, er]

/-! ## The payloads -/

/-- The bias row [1, 256] as the rank-1 array it was reshaped from. -/
def biasOf (bv : Vec Ideal S1x256 .f32) : SB.Idx → EReal := fun i => bv (ix2 0 (i 0))

variable (xc : Vec Ideal S8x512x256 .f32) (w : Vec Ideal S256x256 .bf16) (bv : Vec Ideal S1x256 .f32)
  (vv : Vec Ideal S256x1 .bf16)

/-- The flattened chunk in the narrower format: entry (512 p + r, d) is xc (p, r, d). -/
theorem pay8_apply (p : Fin 8) (r : Fin 512) (d : Fin 256) :
    k0_pay8 (F := Ideal) xc (ix2 (flatRow p r) d) = xc (ix3 p r d) := by
  unfold k0_pay8
  exact cast_flat_apply _ _ p r d

/-- The hidden layer before the tanh: entry (512 p + r, e) is ∑ d, xc (p, r, d) * w (d, e). -/
theorem hidden_apply (p : Fin 8) (r : Fin 512) (e : Fin 256) :
    matmul (φ₂ := .bf16) dot_S4096x256_S256x256_S4096x256_1_0_0_1_n_n none (k0_pay8 (F := Ideal) xc) w
        (constant (F := Ideal) S4096x256 .f32 0x00000000#32) (ix2 (flatRow p r) e)
      = ∑ d : Fin 256, xc (ix3 p r d) * w (ix2 d e) :=
  (matmul_hidden_apply _ _ _ e).trans
    (Finset.sum_congr rfl fun d _ => congrArg (· * w (ix2 d e)) (pay8_apply xc p r d))

/-- The chunk's score of sequence row r of batch row p. -/
theorem pay9_apply (p : Fin 8) (r : Fin 512) :
    k0_pay9 (F := Ideal) xc w bv vv (ix3 p r 0) = logit w (biasOf bv) vv (fun d => xc (ix3 p r d)) := by
  unfold k0_pay9
  refine (cast_unflat_col_apply _ _ p r).trans ?_
  refine (matmul_score_apply _ _ (flatRow p r)).trans ?_
  unfold logit
  refine Finset.sum_congr rfl fun e _ => ?_
  rw [shapeCast_self, shapeCast_self, shapeCast_self]
  show Ideal.tanh
        (matmul (φ₂ := .bf16) dot_S4096x256_S256x256_S4096x256_1_0_0_1_n_n none (k0_pay8 (F := Ideal) xc) w
            (constant (F := Ideal) S4096x256 .f32 0x00000000#32) (ix2 (flatRow p r) e)
          + broadcastTo S4096x256 (bv : FVec Ideal S1x256 .f32) broadcasts_S1x256_S4096x256 (ix2 (flatRow p r) e))
        * vv (ix2 e 0)
      = Ideal.tanh ((∑ d : Fin 256, xc (ix3 p r d) * w (ix2 d e)) + bv (ix2 0 e)) * vv (ix2 e 0)
  rw [hidden_apply, bcast_rows_apply]

/-- The new maximum of batch row p: the running one against the chunk's largest score. -/
theorem pay10_apply (m : Vec Ideal S8x1x1 .f32) (p : Fin 8) :
    k0_pay10 (F := Ideal) xc w bv vv m (ix3 p 0 0)
      = max (m (ix3 p 0 0))
          ((Finset.univ : Finset (Fin 512)).fold max ⊥ (fun r => k0_pay9 (F := Ideal) xc w bv vv (ix3 p r 0))) := by
  unfold k0_pay10
  refine congrArg (max (m (ix3 p 0 0))) ?_
  refine (cast_col_apply _ _ p).trans ?_
  exact rowMax_apply _ _ _ _ p

/-- The rescaling factor of batch row p. -/
theorem pay11_apply (m m' : Vec Ideal S8x1x1 .f32) (p : Fin 8) :
    k0_pay11 (F := Ideal) xc w bv vv m m' (ix3 p 0 0)
      = Ideal.exp (m' (ix3 p 0 0) - k0_pay10 (F := Ideal) xc w bv vv m (ix3 p 0 0)) := by
  unfold k0_pay11
  rfl

/-- The weight of sequence row r of batch row p. -/
theorem pay12_apply (m : Vec Ideal S8x1x1 .f32) (p : Fin 8) (r : Fin 512) :
    k0_pay12 (F := Ideal) xc w bv vv m (ix3 p r 0)
      = Ideal.exp (k0_pay9 (F := Ideal) xc w bv vv (ix3 p r 0) - k0_pay10 (F := Ideal) xc w bv vv m (ix3 p 0 0)) := by
  unfold k0_pay12
  refine congrArg (fun t => Ideal.exp (k0_pay9 (F := Ideal) xc w bv vv (ix3 p r 0) - t)) ?_
  exact bcast_seq_apply _ _ p r

/-- The running denominator rescaled. -/
theorem pay13_apply (m m' l : Vec Ideal S8x1x1 .f32) (p : Fin 8) :
    k0_pay13 (F := Ideal) xc w bv vv m m' l (ix3 p 0 0)
      = k0_pay11 (F := Ideal) xc w bv vv m m' (ix3 p 0 0) * l (ix3 p 0 0) := by
  unfold k0_pay13
  rfl

/-- The chunk's sum of weights. -/
theorem pay14_apply (m : Vec Ideal S8x1x1 .f32) (p : Fin 8) :
    k0_pay14 (F := Ideal) xc w bv vv m (ix3 p 0 0)
      = ∑ r : Fin 512, k0_pay12 (F := Ideal) xc w bv vv m (ix3 p r 0) := by
  unfold k0_pay14
  refine (cast_col_apply _ _ p).trans ?_
  exact rowSum_apply _ _ _ _ p

/-- The new denominator: the sum of its two parts. -/
theorem pay4_apply (a b : FVec Ideal S8x1x1 .f32) (p : Fin 8) :
    k0_pay4 (F := Ideal) a b (ix3 p 0 0) = a (ix3 p 0 0) + b (ix3 p 0 0) := by
  unfold k0_pay4
  rw [shapeCast_self]
  rfl

/-- The new numerator: the running one rescaled plus the chunk's weighted feature sum. -/
theorem pay5_apply (a : FVec Ideal S8x1x1 .f32) (q : FVec Ideal S8x512x1 .f32) (acc : Vec Ideal S8x1x256 .f32)
    (p : Fin 8) (d : Fin 256) :
    k0_pay5 (F := Ideal) (k0_pay8 (F := Ideal) xc) a q acc (ix3 p 0 d)
      = a (ix3 p 0 0) * acc (ix3 p 0 d) + ∑ r : Fin 512, q (ix3 p r 0) * xc (ix3 p r d) := by
  unfold k0_pay5
  rw [shapeCast_self]
  show broadcastTo S8x1x256 a broadcasts_S8x1x1_S8x1x256 (ix3 p 0 d) * acc (ix3 p 0 d)
        + matmul dot_S8x512x1_S8x512x256_S8x1x256_1_1_2_2_0_0 none (truncf .bf16 q bitsLt_bf16_f32)
            (shapeCast S8x512x256 (k0_pay8 (F := Ideal) xc) shapeCasts_S4096x256_S8x512x256)
            (constant (F := Ideal) S8x1x256 .f32 0x00000000#32) (ix3 p 0 d)
      = a (ix3 p 0 0) * acc (ix3 p 0 d) + ∑ r : Fin 512, q (ix3 p r 0) * xc (ix3 p r d)
  rw [bcast_feat_apply, matmul_wsum_apply]
  refine congrArg (a (ix3 p 0 0) * acc (ix3 p 0 d) + ·) (Finset.sum_congr rfl fun r _ => ?_)
  refine congrArg (q (ix3 p r 0) * ·) ?_
  exact (cast_unflat_apply _ _ p r d).trans (pay8_apply xc p r d)

/-- The new maximum is stored as it is. -/
theorem pay6_eq (m : FVec Ideal S8x1x1 .f32) : k0_pay6 (F := Ideal) m = m := by
  unfold k0_pay6
  exact shapeCast_self _ _

/-- The result entry: numerator over denominator. -/
theorem pay7_apply (acc : Vec Ideal S8x1x256 .f32) (l : Vec Ideal S8x1x1 .f32) (p : Fin 8) (d : Fin 256) :
    k0_pay7 (F := Ideal) acc l (ix2 p d) = Ideal.div (acc (ix3 p 0 d)) (l (ix3 p 0 0)) := by
  unfold k0_pay7
  refine (cast_squeeze_apply _ _ p d).trans ?_
  refine congrArg (Ideal.div (acc (ix3 p 0 d))) ?_
  exact bcast_feat_apply _ _ p d

/-- The reset values: the maximum at ⊥, denominator and numerator at 0. -/
theorem pay1_apply (j : S8x1x1.Idx) : k0_pay1 (F := Ideal) j = ⊥ := by
  unfold k0_pay1
  rw [shapeCast_self]
  exact ofBits_negInf_f32

theorem pay2_apply (j : S8x1x1.Idx) : k0_pay2 (F := Ideal) j = 0 := by
  unfold k0_pay2
  rw [shapeCast_self]
  exact Ideal.ofBits_zero_f32

theorem pay3_apply (j : S8x1x256.Idx) : k0_pay3 (F := Ideal) j = 0 := by
  unfold k0_pay3
  rw [shapeCast_self]
  exact Ideal.ofBits_zero_f32

end Cert.KernelIdeal.Step

end
-- ==== Proof.KTrip.lean ====
/-
  One trip of the kernel's loop on the running softmax quantities.

  If, for every batch row p of the block, the three carried buffers hold the running maximum, denominator and
  numerators of the scores σ p over the sequence rows before chunk j, and the chunk the trip reads is rows
  512 j … 512 j + 511, then after the trip they hold those over the rows before chunk j + 1: the new maximum is the
  larger of the old one and the chunk's; denominator and numerators are rescaled by exp (old − new) and gain the
  chunk's terms taken at the new maximum.
-/
import proofs.«417543_j38482906972715_3_alg».proof.Proof.KPieces
import proofs.«417543_j38482906972715_3_alg».proof.Proof.KStep

set_option maxRecDepth 16384

noncomputable section

open scoped BigOperators

namespace Cert.KernelIdeal.Trip

open Cert.KernelIdeal Cert.KernelIdeal.Gen Cert.KernelIdeal.Pieces Cert.KernelIdeal.Step
open Idealize.ShloMosaic Idealize.ShloMosaic.ValueIdx Cert.Hand.Pool Cert.Hand.SoftmaxMerge

/-- The three carried buffers of a block of 8 batch rows. -/
abbrev St : Type := Vec Ideal S8x1x1 .f32 × Vec Ideal S8x1x1 .f32 × Vec Ideal S8x1x256 .f32

/-- The buffers hold, for each batch row p, the running quantities of σ p (and of the features ν p d) over the
    sequence rows before n. -/
def Matches (σ : Fin 8 → Fin 4096 → EReal) (ν : Fin 8 → Fin 256 → Fin 4096 → EReal) (n : ℕ) (s : St) : Prop :=
  ∀ p : Fin 8, s.1 (ix3 p 0 0) = runMax (σ p) n ∧ s.2.1 (ix3 p 0 0) = runDen (σ p) n
    ∧ ∀ d : Fin 256, s.2.2 (ix3 p 0 d) = runNum (σ p) (ν p d) n

/-- The reset values match the empty set of rows. -/
theorem matches_reset (σ : Fin 8 → Fin 4096 → EReal) (ν : Fin 8 → Fin 256 → Fin 4096 → EReal) :
    Matches σ ν (512 * 0) (k0_pay1 (F := Ideal), k0_pay2 (F := Ideal), k0_pay3 (F := Ideal)) := by
  intro p
  refine ⟨?_, ?_, fun d => ?_⟩
  · show k0_pay1 (F := Ideal) (ix3 p 0 0) = _
    rw [pay1_apply, runMax_zero]
  · show k0_pay2 (F := Ideal) (ix3 p 0 0) = _
    rw [pay2_apply, runDen_zero]
  · show k0_pay3 (F := Ideal) (ix3 p 0 d) = _
    rw [pay3_apply, runNum_zero]

/-- One trip moves the running quantities from the rows before chunk j to the rows before chunk j + 1. -/
theorem tripOn_matches (k : Fin k0_t1_loop.trips) (x0 : Vec Ideal S8x1024x256 .f32) (w : Vec Ideal S256x256 .bf16)
    (bv : Vec Ideal S1x256 .f32) (vv : Vec Ideal S256x1 .bf16)
    (σ : Fin 8 → Fin 4096 → EReal) (ν : Fin 8 → Fin 256 → Fin 4096 → EReal)
    (hσr : ∀ p s, ∃ r : ℝ, σ p s = (r : EReal)) (hνr : ∀ p d s, ∃ r : ℝ, ν p d s = (r : EReal))
    (j : ℕ) (hj : j < 8)
    (hσ : ∀ (p : Fin 8) (r : Fin 512), logit w (biasOf bv) vv (fun d => chunkOf k x0 (ix3 p r d)) = σ p (chunkRow j hj r))
    (hν : ∀ (p : Fin 8) (r : Fin 512) (d : Fin 256), chunkOf k x0 (ix3 p r d) = ν p d (chunkRow j hj r))
    (s : St) (hs : Matches σ ν (512 * j) s) :
    Matches σ ν (512 * (j + 1)) (tripOn k x0 w bv vv s) := by
  intro p
  obtain ⟨hm, hl, ha⟩ := hs p
  have h9 : ∀ r : Fin 512, k0_pay9 (F := Ideal) (chunkOf k x0) w bv vv (ix3 p r 0) = σ p (chunkRow j hj r) := fun r => by
    rw [pay9_apply, hσ]
  have hM : k0_pay10 (F := Ideal) (chunkOf k x0) w bv vv s.1 (ix3 p 0 0) = runMax (σ p) (512 * (j + 1)) := by
    rw [pay10_apply, hm]
    simp only [h9]
    rw [fold_max_chunk j hj (σ p), runMax_step]
  have h12 : ∀ r : Fin 512, k0_pay12 (F := Ideal) (chunkOf k x0) w bv vv s.1 (ix3 p r 0)
      = Ideal.exp (σ p (chunkRow j hj r) - runMax (σ p) (512 * (j + 1))) := fun r => by
    rw [pay12_apply, h9, hM]
  have h11 : k0_pay11 (F := Ideal) (chunkOf k x0) w bv vv s.1 s.1 (ix3 p 0 0)
      = Ideal.exp (runMax (σ p) (512 * j) - runMax (σ p) (512 * (j + 1))) := by
    rw [pay11_apply, hM, hm]
  refine ⟨?_, ?_, fun d => ?_⟩
  · show stepM (chunkOf k x0) w bv vv s.1 (ix3 p 0 0) = _
    unfold stepM
    rw [pay6_eq]
    exact hM
  · show stepL (chunkOf k x0) w bv vv s.1 s.2.1 (ix3 p 0 0) = _
    unfold stepL
    rw [pay4_apply, pay13_apply, h11, pay14_apply, hl]
    simp only [h12]
    rw [sum_chunk j hj (fun s => Ideal.exp (σ p s - runMax (σ p) (512 * (j + 1))))]
    exact runDen_step (σ p) (hσr p) j hj
  · show stepA (chunkOf k x0) w bv vv s.1 s.2.2 (ix3 p 0 d) = _
    unfold stepA
    rw [pay5_apply, h11, ha d]
    simp only [h12, hν]
    rw [sum_chunk j hj (fun s => Ideal.exp (σ p s - runMax (σ p) (512 * (j + 1))) * ν p d s)]
    exact runNum_step (σ p) (ν p d) (hσr p) (hνr p d) j hj

end Cert.KernelIdeal.Trip

end
-- ==== Proof.KInv.lean ====
/-
  The kernel's result array is the pooled features of its argument arrays.

  Grid step t = 4 g + q works on batch block g (rows 8 g … 8 g + 7) and sequence block q (rows 1024 q …
  1024 q + 1023), in two chunks of 512 rows. The three carried buffers hold, after step t, the running maximum,
  denominator and numerators of each of the block's batch rows over the sequence rows before 1024 (q + 1): at q = 0
  the loop starts from the reset values (⊥, 0, 0), at q > 0 from what step t − 1 left, and each chunk is one
  rescaling step of the running quantities. At q = 3 the rows are all 4096, the output block is numerator over
  denominator, and the blocks written back at the steps 4 g + 3 tile the result.
-/
import proofs.«417543_j38482906972715_3_alg».proof.Proof.KTrip
import Idealize.ShloMosaic.Lib.StableHlo.Run
import Idealize.ShloMosaic.Lib.Pipeline.Value
import Idealize.ShloMosaic.Lib.ValueLayout

set_option maxRecDepth 16384

noncomputable section

open scoped BigOperators

namespace Cert.KernelIdeal.Inv

open Cert.KernelIdeal Cert.KernelIdeal.Gen Cert.KernelIdeal.Pieces Cert.KernelIdeal.Step Cert.KernelIdeal.Trip
open Idealize.ShloMosaic Idealize.ShloMosaic.TcCoe Idealize.SL.Sem Idealize.ShloMosaic.ValueIdx
open Cert.Hand.Pool Cert.Hand.SoftmaxMerge Cert.LibERealSage
open Idealize.ShloMosaic.Pipeline (Dat)

variable (m : (ℓ : Loc nD τ sig) → Buf (Elt Ideal) ℓ)

/-! ## The blocks a grid step reads, as entries of the argument arrays -/

/-- The block index of every window at grid step t: step t works on batch block t / 4 and sequence block t % 4. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N, _)

/-- The four input blocks of a step, at their literal shapes. -/
abbrev xblk (c : Dev nD) (t : Fin cfg0.N) : Vec Ideal S8x1024x256 .f32 := iblk m c 0 t
abbrev wblk (c : Dev nD) (t : Fin cfg0.N) : Vec Ideal S256x256 .bf16 := iblk m c 1 t
abbrev bblk (c : Dev nD) (t : Fin cfg0.N) : Vec Ideal S1x256 .f32 := iblk m c 2 t
abbrev vblk (c : Dev nD) (t : Fin cfg0.N) : Vec Ideal S256x1 .bf16 := iblk m c 3 t

/-- The four argument arrays. -/
abbrev argX (c : Dev nD) : SX.Idx → EReal := m ((c : Thread nD τ).loc main_arg0)
abbrev argW (c : Dev nD) : SW.Idx → EReal := m ((c : Thread nD τ).loc main_arg1)
abbrev argB (c : Dev nD) : SB.Idx → EReal := m ((c : Thread nD τ).loc main_arg2)
abbrev argV (c : Dev nD) : SV.Idx → EReal := m ((c : Thread nD τ).loc main_arg3)

/-- Entry (p, s, d) of the input block of step t is entry (8 (t / 4) + p, 1024 (t % 4) + s, d) of the input. -/
theorem xblk_apply (c : Dev nD) (t : Fin cfg0.N) (p : Fin 8) (s : Fin 1024) (d : Fin 256) (b : Fin 32) (q : Fin 4096)
    (hb : b.val = 8 * (t.val / 4) + p.val) (hq : q.val = 1024 * (t.val % 4) + s.val) :
    xblk m c t (ix3 p s d) = argX m c (ix3 b q d) := by
  obtain ⟨e0, e1, e2, -⟩ := idx_facts t
  show V m c main_arg0 (((cfg0.win 0).blk t).view.emb (ix3 p s d)) = _
  rw [V_main_arg0]
  refine congrArg (m ((c : Thread nD τ).loc main_arg0)) ?_
  funext a; apply Fin.ext
  match a with
  | ⟨0, _⟩ => show win0_0.index t (0 : Fin 3) * 8 + 1 * p.val = b.val; omega
  | ⟨1, _⟩ => show win0_0.index t (1 : Fin 3) * 1024 + 1 * s.val = q.val; omega
  | ⟨2, _⟩ => show win0_0.index t (2 : Fin 3) * 256 + 1 * d.val = d.val; omega

/-- The weight block is the weight matrix (its change of float format is the identity on the extended reals). -/
theorem wblk_apply (c : Dev nD) (t : Fin cfg0.N) (d e : Fin 256) : wblk m c t (ix2 d e) = argW m c (ix2 d e) := by
  obtain ⟨-, -, -, e0, e1, -⟩ := idx_facts t
  have hV : (V m c main_v0 : S256x256.Idx → EReal) = truncf (F := Ideal) .bf16 (show FVec Ideal S256x256 .f32 from m ((c : Thread nD τ).loc main_arg1)) bitsLt_bf16_f32 := by
    dsimp only [Gen.V, Gen.hostOps0]; after_results
  show V m c main_v0 (((cfg0.win 1).blk t).view.emb (ix2 d e)) = _
  rw [hV]
  show m ((c : Thread nD τ).loc main_arg1) (((cfg0.win 1).blk t).view.emb (ix2 d e)) = _
  refine congrArg (m ((c : Thread nD τ).loc main_arg1)) ?_
  funext a; apply Fin.ext
  match a with
  | ⟨0, _⟩ => show win0_1.index t (0 : Fin 2) * 256 + 1 * d.val = d.val; omega
  | ⟨1, _⟩ => show win0_1.index t (1 : Fin 2) * 256 + 1 * e.val = e.val; omega

/-- The column block is the column v. -/
theorem vblk_apply (c : Dev nD) (t : Fin cfg0.N) (e : Fin 256) : vblk m c t (ix2 e 0) = argV m c (ix2 e 0) := by
  obtain ⟨-, -, -, -, -, -, -, e0, e1, -⟩ := idx_facts t
  have hV : (V m c main_v2 : S256x1.Idx → EReal) = truncf (F := Ideal) .bf16 (show FVec Ideal S256x1 .f32 from m ((c : Thread nD τ).loc main_arg3)) bitsLt_bf16_f32 := by
    dsimp only [Gen.V, Gen.hostOps0]; after_results
  show V m c main_v2 (((cfg0.win 3).blk t).view.emb (ix2 e 0)) = _
  rw [hV]
  show m ((c : Thread nD τ).loc main_arg3) (((cfg0.win 3).blk t).view.emb (ix2 e 0)) = _
  refine congrArg (m ((c : Thread nD τ).loc main_arg3)) ?_
  funext a; apply Fin.ext
  match a with
  | ⟨0, _⟩ => show win0_3.index t (0 : Fin 2) * 256 + 1 * e.val = e.val; omega
  | ⟨1, _⟩ => show win0_3.index t (1 : Fin 2) * 1 + 1 * 0 = 0; omega

/-- The bias block [1, 256] is the bias vector laid out as one row. -/
theorem bblk_apply (c : Dev nD) (t : Fin cfg0.N) (e : Fin 256) : bblk m c t (ix2 0 e) = argB m c (ix1 e) := by
  obtain ⟨-, -, -, -, -, e0, e1, -⟩ := idx_facts t
  have hV : (V m c main_v1 : S1x256.Idx → EReal) = shapeCast S1x256 (m ((c : Thread nD τ).loc main_arg2)) shapeCasts_S256_S1x256 := by
    dsimp only [Gen.V, Gen.hostOps0]; after_results; rfl
  show V m c main_v1 (((cfg0.win 2).blk t).view.emb (ix2 0 e)) = _
  rw [hV]
  have hemb : ((cfg0.win 2).blk t).view.emb (ix2 0 e) = (ix2 (0 : Fin 1) e : S1x256.Idx) := by
    funext a; apply Fin.ext
    match a with
    | ⟨0, _⟩ => show win0_2.index t (0 : Fin 2) * 1 + 1 * 0 = 0; omega
    | ⟨1, _⟩ => show win0_2.index t (1 : Fin 2) * 256 + 1 * e.val = e.val; omega
  rw [hemb]
  exact shapeCast_a_1a_apply _ _ 0 e

/-! ## The two chunks of a block -/

/-- Trip k of the loop reads the rows 512 k … 512 k + 511 of the staged block. -/
theorem off_facts : ∀ k : Fin k0_t1_loop.trips, k0_off1 k = ![0, 512 * k.val, 0] := by decide +kernel

theorem chunkOf_apply (k : Fin k0_t1_loop.trips) (x0 : Vec Ideal S8x1024x256 .f32) (p : Fin 8) (r : Fin 512) (d : Fin 256)
    (s : Fin 1024) (hs : s.val = 512 * k.val + r.val) : chunkOf k x0 (ix3 p r d) = x0 (ix3 p s d) := by
  unfold chunkOf
  show x0 ((Rect.unit (s := S8x1024x256) (k0_off1 k) S8x512x256.size (k0_off1_inb k)).idx (ix3 p r d)) = _
  refine congrArg x0 ?_
  have ho := off_facts k
  funext a; apply Fin.ext
  match a with
  | ⟨0, _⟩ => show k0_off1 k 0 + 1 * p.val = p.val; rw [ho]; show 0 + 1 * p.val = p.val; omega
  | ⟨1, _⟩ => show k0_off1 k 1 + 1 * r.val = s.val; rw [ho]; show 512 * k.val + 1 * r.val = s.val; omega
  | ⟨2, _⟩ => show k0_off1 k 2 + 1 * d.val = d.val; rw [ho]; show 0 + 1 * d.val = d.val; omega

/-! ## The running quantities after every grid step -/

/-- Grid step t works on the batch rows 8 (t / 4) … 8 (t / 4) + 7. -/
def rowOf (t : Fin cfg0.N) (p : Fin 8) : Fin 32 :=
  ⟨8 * (t.val / 4) + p.val, by have := t.isLt; have hN : cfg0.N = 16 := N_0; have := p.isLt; omega⟩

/-- The scores and the features of the batch rows of step t. -/
abbrev σOf (c : Dev nD) (t : Fin cfg0.N) : Fin 8 → Fin 4096 → EReal :=
  fun p => score (argX m c) (argW m c) (argB m c) (argV m c) (rowOf t p)
abbrev νOf (c : Dev nD) (t : Fin cfg0.N) : Fin 8 → Fin 256 → Fin 4096 → EReal :=
  fun p d => feat (argX m c) (rowOf t p) d

/-- A chunk's entries are features of the input: chunk k of step t is the rows of global chunk 2 (t % 4) + k. -/
theorem chunk_feat (c : Dev nD) (t : Fin cfg0.N) (k : Fin k0_t1_loop.trips) (j : ℕ) (hj : j < 8)
    (hjk : j = 2 * (t.val % 4) + k.val) (p : Fin 8) (r : Fin 512) (d : Fin 256) :
    chunkOf k (xblk m c t) (ix3 p r d) = νOf m c t p d (chunkRow j hj r) := by
  have hk : k.val < 2 := lt_of_lt_of_eq k.isLt trips_eq
  rw [chunkOf_apply k _ p r d ⟨512 * k.val + r.val, by have := r.isLt; omega⟩ rfl]
  exact xblk_apply m c t p _ d (rowOf t p) (chunkRow j hj r) rfl (by
    show 512 * j + r.val = 1024 * (t.val % 4) + (512 * k.val + r.val); omega)

/-- A chunk's scores are scores of the input. -/
theorem chunk_score (c : Dev nD) (t : Fin cfg0.N) (k : Fin k0_t1_loop.trips) (j : ℕ) (hj : j < 8)
    (hjk : j = 2 * (t.val % 4) + k.val) (p : Fin 8) (r : Fin 512) :
    logit (wblk m c t) (biasOf (bblk m c t)) (vblk m c t) (fun d => chunkOf k (xblk m c t) (ix3 p r d))
      = σOf m c t p (chunkRow j hj r) := by
  show _ = logit (argW m c) (argB m c) (argV m c) (fun d => argX m c (ix3 (rowOf t p) (chunkRow j hj r) d))
  unfold logit biasOf
  simp only [wblk_apply, vblk_apply]
  refine Finset.sum_congr rfl fun e _ => ?_
  have hb : bblk m c t (ix2 0 ((ix1 e : SB.Idx) 0)) = argB m c (ix1 e) := bblk_apply m c t e
  rw [hb]
  refine congrArg (fun z => Ideal.tanh (z + argB m c (ix1 e)) * argV m c (ix2 e 0)) ?_
  refine Finset.sum_congr rfl fun d _ => ?_
  rw [chunk_feat m c t k j hj hjk p r d]
  rfl

section Real

variable (c : Dev nD) (hX : ∀ i, IsReal (argX m c i)) (hW : ∀ i, IsReal (argW m c i)) (hB : ∀ i, IsReal (argB m c i))
  (hV : ∀ i, IsReal (argV m c i))

include hX hW hB hV

/-- The loop of step t moves the running quantities over the block's two chunks. -/
theorem loopOn_matches (t : Fin cfg0.N) (s : St) (hs : Matches (σOf m c t) (νOf m c t) (512 * (2 * (t.val % 4))) s) :
    Matches (σOf m c t) (νOf m c t) (512 * (2 * (t.val % 4) + 1 + 1))
      (loopOn (xblk m c t) (wblk m c t) (bblk m c t) (vblk m c t) s) := by
  have hσr : ∀ p s, ∃ r : ℝ, σOf m c t p s = (r : EReal) := fun p s => score_real hX hW hB hV _ _
  have hνr : ∀ p d s, ∃ r : ℝ, νOf m c t p d s = (r : EReal) := fun p d s => feat_real hX _ _ _
  have hj0 : 2 * (t.val % 4) < 8 := by omega
  have hj1 : 2 * (t.val % 4) + 1 < 8 := by omega
  unfold loopOn
  have h1 := tripOn_matches kA (xblk m c t) (wblk m c t) (bblk m c t) (vblk m c t) (σOf m c t) (νOf m c t) hσr hνr
    (2 * (t.val % 4)) hj0 (chunk_score m c t kA _ hj0 (by show _ = _ + 0; omega))
    (chunk_feat m c t kA _ hj0 (by show _ = _ + 0; omega)) s hs
  exact tripOn_matches kB (xblk m c t) (wblk m c t) (bblk m c t) (vblk m c t) (σOf m c t) (νOf m c t) hσr hνr
    (2 * (t.val % 4) + 1) hj1 (chunk_score m c t kB _ hj1 rfl) (chunk_feat m c t kB _ hj1 rfl) _ h1

end Real

/-- The three carried buffers after grid step n. -/
abbrev scr (c : Dev nD) (n : ℕ) (h : n < cfg0.N) : St := (outsAt0 m c n h).2

/-- At the first step of a batch block the loop starts from the reset values. -/
theorem scr_first (c : Dev nD) (t : Fin cfg0.N) (h0 : t.val % 4 = 0) :
    scr m c t.val t.isLt = loopOn (xblk m c t) (wblk m c t) (bblk m c t) (vblk m c t)
      (k0_pay1 (F := Ideal), k0_pay2 (F := Ideal), k0_pay3 (F := Ideal)) := by
  have h1 : ¬t.val % 4 = 3 := by omega
  show (outsAt0 m c t.val t.isLt).2 = _
  rw [outsAt0_A m c t h0 h1]
  dsimp only
  exact Prod.ext (sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))
    (Prod.ext (sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t))
      (sout_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)))

/-- At every other step the loop starts from what the step before left. -/
theorem scr_next (c : Dev nD) (t : Fin cfg0.N) (h0 : ¬t.val % 4 = 0) :
    scr m c t.val t.isLt = loopOn (xblk m c t) (wblk m c t) (bblk m c t) (vblk m c t)
      (scr m c (t.val - 1) (Nat.lt_of_le_of_lt (Nat.sub_le _ _) t.isLt)) := by
  show (outsAt0 m c t.val t.isLt).2 = _
  by_cases h1 : t.val % 4 = 3
  · rw [outsAt0_C m c t h0 h1]
    dsimp only
    exact Prod.ext (sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
      (Prod.ext (sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
        (sout_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2))
  · rw [outsAt0_B m c t h0 h1]
    dsimp only
    exact Prod.ext (sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
      (Prod.ext (sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
        (sout_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2))

/-- At the last step of a batch block the output block is numerator over denominator of what the loop left. -/
theorem out_last (c : Dev nD) (t : Fin cfg0.N) (h3 : t.val % 4 = 3) :
    (outsAt0 m c t.val t.isLt).1 = k0_pay7 (F := Ideal) (scr m c t.val t.isLt).2.2 (scr m c t.val t.isLt).2.1 := by
  have h0 : ¬t.val % 4 = 0 := by omega
  rw [scr_next m c t h0]
  rw [outsAt0_C m c t h0 h3]
  dsimp only
  exact out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h3) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

section Final

variable (c : Dev nD) (hX : ∀ i, IsReal (argX m c i)) (hW : ∀ i, IsReal (argW m c i)) (hB : ∀ i, IsReal (argB m c i))
  (hV : ∀ i, IsReal (argV m c i))

include hX hW hB hV

/-- After grid step n the carried buffers hold the running quantities of the block's batch rows over the first
    n % 4 + 1 sequence blocks: by induction on the step, the first step of a batch block starting from the reset
    values and every other step from what the step before left (the same batch rows). -/
theorem scr_matches : ∀ (n : ℕ) (h : n < cfg0.N),
    Matches (σOf m c ⟨n, h⟩) (νOf m c ⟨n, h⟩) (512 * (2 * (n % 4) + 1 + 1)) (scr m c n h)
  | 0, h => by
    have e := scr_first m c ⟨0, h⟩ rfl
    rw [show scr m c 0 h = _ from e]
    exact loopOn_matches m c hX hW hB hV ⟨0, h⟩ _ (matches_reset _ _)
  | n + 1, h => by
    by_cases h0 : (n + 1) % 4 = 0
    · have e := scr_first m c ⟨n + 1, h⟩ h0
      rw [show scr m c (n + 1) h = _ from e]
      refine loopOn_matches m c hX hW hB hV ⟨n + 1, h⟩ _ ?_
      rw [show 2 * ((⟨n + 1, h⟩ : Fin cfg0.N).val % 4) = 0 from by show 2 * ((n + 1) % 4) = 0; omega]
      exact matches_reset _ _
    · have e := scr_next m c ⟨n + 1, h⟩ h0
      rw [show scr m c (n + 1) h = _ from e]
      refine loopOn_matches m c hX hW hB hV ⟨n + 1, h⟩ _ ?_
      have ih := scr_matches n (Nat.lt_of_succ_lt h)
      have hrow : ∀ p, rowOf ⟨n + 1, h⟩ p = rowOf ⟨n, Nat.lt_of_succ_lt h⟩ p := fun p =>
        Fin.ext (by show 8 * ((n + 1) / 4) + p.val = 8 * (n / 4) + p.val; omega)
      have hσ : σOf m c ⟨n + 1, h⟩ = σOf m c ⟨n, Nat.lt_of_succ_lt h⟩ := funext fun p => by
        show score _ _ _ _ (rowOf _ p) = score _ _ _ _ (rowOf _ p); rw [hrow p]
      have hν : νOf m c ⟨n + 1, h⟩ = νOf m c ⟨n, Nat.lt_of_succ_lt h⟩ := funext fun p => by
        show feat _ (rowOf _ p) = feat _ (rowOf _ p); rw [hrow p]
      rw [hσ, hν]
      have en : 512 * (2 * ((⟨n + 1, h⟩ : Fin cfg0.N).val % 4)) = 512 * (2 * (n % 4) + 1 + 1) := by
        show 512 * (2 * ((n + 1) % 4)) = _; omega
      rw [en]
      exact ih

/-- So the block written back at the last step of a batch block holds the pooled features of its batch rows. -/
theorem out_entry (t : Fin cfg0.N) (h3 : t.val % 4 = 3) (p : Fin 8) (d : Fin 256) :
    (outsAt0 m c t.val t.isLt).1 (ix2 p d)
      = G (argX m c) (argW m c) (argB m c) (argV m c) (ix2 (rowOf t p) d) := by
  rw [out_last m c t h3, pay7_apply]
  obtain ⟨-, hl, ha⟩ := scr_matches m c hX hW hB hV t.val t.isLt p
  rw [ha d, hl, h3]
  show _ = pooled (σOf m c t p) (νOf m c t p d)
  rw [pooled_eq_run]

/-- What the last step of a batch block writes back is its block of the pooled features. -/
theorem flushed_eq (t : Fin cfg0.N) (hf : (cfg0.win 4).flush t = true) :
    (dats m 0 c).flushed 4 t
      = ((cfg0.win 4).blk t).view.read (Elt Ideal) (G (argX m c) (argW m c) (argB m c) (argV m c)) := by
  have h3 : t.val % 4 = 3 := (flush0_4 t).mp hf
  obtain ⟨-, -, -, -, -, -, -, -, -, e0, e1⟩ := idx_facts t
  show (cfg0.win 4).cut (grid0.coords t) ((dats m 0 c).after 4 t) = _
  rw [after0_4]
  funext y
  show (outsAt0 m c t.val t.isLt).1 y = G (argX m c) (argW m c) (argB m c) (argV m c) (((cfg0.win 4).blk t).view.emb y)
  have hy : (y : S8x256.Idx) = ix2 (y 0) (y 1) := eq_ix2 y
  have hemb : ((cfg0.win 4).blk t).view.emb y = (ix2 (rowOf t (y 0)) (y 1) : S32x256.Idx) := by
    funext a; apply Fin.ext
    match a with
    | ⟨0, _⟩ => show win0_4.index t (0 : Fin 2) * 8 + 1 * (y 0).val = 8 * (t.val / 4) + (y 0).val; omega
    | ⟨1, _⟩ => show win0_4.index t (1 : Fin 2) * 256 + 1 * (y 1).val = (y 1).val; omega
  rw [hemb]
  exact (congrArg (outsAt0 m c t.val t.isLt).1 hy).trans (out_entry m c hX hW hB hV t h3 (y 0) (y 1))

omit hX hW hB hV in
/-- Every entry of the result lies in the block some batch block's last step writes back. -/
theorem covered (i : S32x256.Idx) :
    ∃ t : Fin cfg0.N, (cfg0.win 4).flush t = true ∧ i ∈ ((cfg0.win 4).blk t).view.set := by
  have hi0 : (i 0).val < 32 := (i 0).isLt
  have hi1 : (i 1).val < 256 := (i 1).isLt
  have hN : cfg0.N = 16 := N_0
  have ht : 4 * ((i 0).val / 8) + 3 < cfg0.N := by omega
  obtain ⟨-, -, -, -, -, -, -, -, -, e0, e1⟩ := idx_facts ⟨4 * ((i 0).val / 8) + 3, ht⟩
  have e0' : win0_4.index ⟨4 * ((i 0).val / 8) + 3, ht⟩ (0 : Fin 2) = (i 0).val / 8 := by
    rw [e0]; show (4 * ((i 0).val / 8) + 3) / 4 = _; omega
  refine ⟨⟨4 * ((i 0).val / 8) + 3, ht⟩, (flush0_4 _).mpr (by show (4 * ((i 0).val / 8) + 3) % 4 = 3; omega), ?_⟩
  show i ∈ ((View.whole main_v3).slice (win0_4.rect ⟨4 * ((i 0).val / 8) + 3, ht⟩)).set
  rw [View.set_slice_whole, Rect.mem_set_unit]
  intro a
  match a with
  | ⟨0, _⟩ =>
    show win0_4.index ⟨4 * ((i 0).val / 8) + 3, ht⟩ (0 : Fin 2) * 8 ≤ (i 0).val
      ∧ (i 0).val < win0_4.index ⟨4 * ((i 0).val / 8) + 3, ht⟩ (0 : Fin 2) * 8 + 8
    rw [e0']; omega
  | ⟨1, _⟩ =>
    show win0_4.index ⟨4 * ((i 0).val / 8) + 3, ht⟩ (1 : Fin 2) * 256 ≤ (i 1).val
      ∧ (i 1).val < win0_4.index ⟨4 * ((i 0).val / 8) + 3, ht⟩ (1 : Fin 2) * 256 + 256
    rw [e1]; omega

/-- The result array after the run is the pooled features of the argument arrays. -/
theorem final : (dats m 0 c).arrAt 4 cfg0.N = G (argX m c) (argW m c) (argB m c) (argV m c) :=
  (dats m 0 c).arrAt_eq_of_cover 4 (G (argX m c) (argW m c) (argB m c) (argV m c))
    (fun t hf => flushed_eq m c hX hW hB hV t hf) covered

end Final

end Cert.KernelIdeal.Inv

end
-- ==== Proof.RefValue.lean ====
/-
  The reference program, read entry by entry.

  The reference computes the layer with whole-array operations: the contraction of x against W, the bias
  broadcast and added, tanh, the contraction against the column v (the scores, one for each batch row and
  sequence row), the maximum of the scores over the sequence taken from −∞, the exponentials of the scores
  shifted by that maximum, their sum over the sequence taken from 0, the quotients (the softmax weights), the
  weights broadcast along the features and multiplied into x, and the sum over the sequence taken from 0.
  Every operation's result at an index is a function of its operands at indices. Following these from the
  result back to the arguments gives, at entry (b, d),
    0 + ∑ s, (exp (score s - M) / (0 + ∑ s', exp (score s' - M))) * x b s d,    M = the largest score of row b,
  and on real arguments this is the numerator over the denominator, both shifted by M: entry (b, d) of G.
-/
import proofs.«417543_j38482906972715_3_alg».proof.Proof.Gen.ReferenceIdeal.Read
import proofs.«417543_j38482906972715_3_alg».proof.Proof.Spec
import Idealize.ShloMosaic.PureOps.Reduce
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx
  Cert.Hand.SoftmaxMerge Cert.Hand.Pool Cert.LibERealSage

/-! ## The index functions of the operations, at coordinates -/

theorem lidx0 (b : Fin 32) (s : Fin 4096) (e d : Fin 256) : Read.lidx_main_v0 (ix3 b s e) d = ix3 b s d := by
  funext a; match a with | ⟨0, _⟩ => rfl | ⟨1, _⟩ => rfl | ⟨2, _⟩ => rfl

theorem ridx0 (b : Fin 32) (s : Fin 4096) (e d : Fin 256) : Read.ridx_main_v0 (ix3 b s e) d = ix2 d e := by
  funext a; match a with | ⟨0, _⟩ => rfl | ⟨1, _⟩ => rfl

theorem idx12 (b : Fin 32) (s : Fin 4096) (e : Fin 256) : Read.idx_main_v1 (Read.idx_main_v2 (ix3 b s e)) = ix1 e := by
  funext a; match a with | ⟨0, _⟩ => rfl

theorem lidx5 (b : Fin 32) (s : Fin 4096) (e : Fin 256) : Read.lidx_main_v5 (ix3 b s (0 : Fin 1)) e = ix3 b s e := by
  funext a; match a with | ⟨0, _⟩ => rfl | ⟨1, _⟩ => rfl | ⟨2, _⟩ => rfl

theorem ridx5 (b : Fin 32) (s : Fin 4096) (e : Fin 256) : Read.ridx_main_v5 (ix3 b s (0 : Fin 1)) e = ix2 e (0 : Fin 1) := by
  funext a; match a with | ⟨0, _⟩ => rfl | ⟨1, _⟩ => rfl

theorem idx9_10 (b : Fin 32) (s : Fin 4096) : Read.idx_main_v9 (Read.idx_main_v10 (ix3 b s (0 : Fin 1))) = ix2 b (0 : Fin 1) := by
  funext a; match a with | ⟨0, _⟩ => rfl | ⟨1, _⟩ => rfl

theorem idx14_15 (b : Fin 32) (s : Fin 4096) : Read.idx_main_v14 (Read.idx_main_v15 (ix3 b s (0 : Fin 1))) = ix2 b (0 : Fin 1) := by
  funext a; match a with | ⟨0, _⟩ => rfl | ⟨1, _⟩ => rfl

theorem idx13 (b : Fin 32) (s : Fin 4096) : Read.idx_main_v13 (ix2 b (0 : Fin 1)) s = ix3 b s (0 : Fin 1) := by
  funext a; match a with | ⟨0, _⟩ => rfl | ⟨1, _⟩ => rfl | ⟨2, _⟩ => rfl

theorem idx17 (b : Fin 32) (s : Fin 4096) (d : Fin 256) : Read.idx_main_v17 (ix3 b s d) = ix3 b s (0 : Fin 1) := by
  funext a; match a with | ⟨0, _⟩ => rfl | ⟨1, _⟩ => rfl | ⟨2, _⟩ => rfl

theorem idx19 (b : Fin 32) (d : Fin 256) (s : Fin 4096) : Read.idx_main_v19 (ix2 b d) s = ix3 b s d := by
  funext a; match a with | ⟨0, _⟩ => rfl | ⟨1, _⟩ => rfl | ⟨2, _⟩ => rfl

/-! ## The scores -/

section
variable (X : SX.Idx → EReal) (W : SW.Idx → EReal) (β : SB.Idx → EReal) (v : SV.Idx → EReal)

/-- The first contraction at (b, s, e): row s of batch row b against column e of W. -/
theorem v0_eq (b : Fin 32) (s : Fin 4096) (e : Fin 256) :
    Read.val_main_v0 (F := Ideal) X W (ix3 b s e) = ∑ d : Fin 256, X (ix3 b s d) * W (ix2 d e) := by
  rw [Read.val_main_v0_apply]
  refine Finset.sum_congr rfl fun d _ => ?_
  rw [lidx0, ridx0]

/-- The hidden activation at (b, s, e). -/
theorem v4_eq (b : Fin 32) (s : Fin 4096) (e : Fin 256) :
    Read.val_main_v4 (F := Ideal) X W β (ix3 b s e)
      = Ideal.tanh ((∑ d : Fin 256, X (ix3 b s d) * W (ix2 d e)) + β (ix1 e)) := by
  rw [Read.val_main_v4_apply, Read.val_main_v3_apply, Read.val_main_v2_apply, Read.val_main_v1_apply, idx12, v0_eq]
  rfl

/-- The second contraction at (b, s, 0) is the score of row s of batch row b. -/
theorem v5_eq (b : Fin 32) (s : Fin 4096) :
    Read.val_main_v5 (F := Ideal) X W β v (ix3 b s (0 : Fin 1)) = score X W β v b s := by
  rw [Read.val_main_v5_apply]
  unfold score logit
  refine Finset.sum_congr rfl fun e _ => ?_
  rw [lidx5, ridx5, v4_eq]

end

/-! ## The largest score of a batch row -/

/-- The sequence axis of a [32, 4096, 1] array reduces onto [32, 1]. -/
theorem red1 : S32x4096x1.Reduces [1] S32x1 := by decide

/-- The reduced index (b, 0) with sequence row k put back is (b, k, 0). -/
theorem lift1 (h : S32x4096x1.Reduces [1] S32x1) (b : Fin 32) (k : Fin (S32x4096x1.size 1)) :
    h.lift (ix2 b (0 : Fin 1)) k = ix3 b (⟨k.val, k.isLt⟩ : Fin 4096) (0 : Fin 1) := by
  funext c; apply Fin.ext
  match c with | ⟨0, _⟩ => rfl | ⟨1, _⟩ => rfl | ⟨2, _⟩ => rfl

/-- The float with bits 0xFF800000 is −∞. -/
theorem ofBits_neg_inf : Ideal.ofBits .f32 0xFF800000#32 = (⊥ : EReal) := by simp [Ideal.ofBits, Ideal.ieee]

section
variable (X : SX.Idx → EReal) (W : SW.Idx → EReal) (β : SB.Idx → EReal) (v : SV.Idx → EReal)

/-- The maximum-reduction over the sequence axis, from −∞, at (b, 0): the largest score of batch row b. -/
theorem v6_eq (b : Fin 32) :
    Read.val_main_v6 (F := Ideal) X W β v (ix2 b (0 : Fin 1)) = top (score X W β v b) Finset.univ := by
  unfold Read.val_main_v6
  rw [Host.reduce_eq_fold_single FloatOps.maximumf _ _ _ red1 _, Read.val_main_cst_apply]
  have hf : (Read.val_main_v5 (F := Ideal) X W β v ∘ red1.lift (ix2 b (0 : Fin 1))) = score X W β v b :=
    funext fun k => by rw [Function.comp_apply, lift1, v5_eq]; rfl
  rw [hf]
  show (Finset.univ : Finset (Fin 4096)).fold max (Ideal.ofBits .f32 0xFF800000#32) (score X W β v b) = _
  rw [ofBits_neg_inf]
  exact fold_max_eq_top Finset.univ _

/-- The larger of −∞ and the reduction is the reduction. -/
theorem v8_eq (b : Fin 32) :
    Read.val_main_v8 (F := Ideal) X W β v (ix2 b (0 : Fin 1)) = top (score X W β v b) Finset.univ := by
  rw [Read.val_main_v8_apply, Read.val_main_v7_apply, Read.val_main_cst_0_apply, v6_eq]
  show max (Ideal.ofBits .f32 0xFF800000#32) _ = _
  rw [ofBits_neg_inf]
  exact max_bot_left _

/-! ## The softmax weights and the pooled features -/

/-- The shifted exponential at (b, s, 0). -/
theorem v12_eq (b : Fin 32) (s : Fin 4096) :
    Read.val_main_v12 (F := Ideal) X W β v (ix3 b s (0 : Fin 1))
      = Ideal.exp (score X W β v b s - top (score X W β v b) Finset.univ) := by
  rw [Read.val_main_v12_apply, Read.val_main_v11_apply, Read.val_main_v10_apply, Read.val_main_v9_apply, idx9_10, v8_eq,
    v5_eq]
  rfl

/-- The sum of the shifted exponentials of batch row b, from 0. -/
theorem v13_eq (b : Fin 32) :
    Read.val_main_v13 (F := Ideal) X W β v (ix2 b (0 : Fin 1))
      = (0 : EReal) + ∑ s : Fin 4096, Ideal.exp (score X W β v b s - top (score X W β v b) Finset.univ) := by
  rw [Read.val_main_v13_apply, Read.val_main_cst_1_apply]
  refine congrArg₂ (· + ·) Ideal.ofBits_zero_f32 (Finset.sum_congr rfl fun s _ => ?_)
  rw [idx13, v12_eq]

/-- The softmax weight of sequence row s of batch row b. -/
theorem v16_eq (b : Fin 32) (s : Fin 4096) :
    Read.val_main_v16 (F := Ideal) X W β v (ix3 b s (0 : Fin 1))
      = Ideal.div (Ideal.exp (score X W β v b s - top (score X W β v b) Finset.univ))
          ((0 : EReal) + ∑ s' : Fin 4096, Ideal.exp (score X W β v b s' - top (score X W β v b) Finset.univ)) := by
  rw [Read.val_main_v16_apply, Read.val_main_v15_apply, Read.val_main_v14_apply, idx14_15, v13_eq, v12_eq]
  rfl

/-- The result at (b, d): the weights against feature d along the sequence, summed from 0. -/
theorem v19_eq (b : Fin 32) (d : Fin 256) :
    Read.val_main_v19 (F := Ideal) X W β v (ix2 b d)
      = (0 : EReal) + ∑ s : Fin 4096,
          Ideal.div (Ideal.exp (score X W β v b s - top (score X W β v b) Finset.univ))
            ((0 : EReal) + ∑ s' : Fin 4096, Ideal.exp (score X W β v b s' - top (score X W β v b) Finset.univ))
          * feat X b d s := by
  rw [Read.val_main_v19_apply, Read.val_main_cst_2_apply]
  refine congrArg₂ (· + ·) Ideal.ofBits_zero_f32 (Finset.sum_congr rfl fun s _ => ?_)
  rw [idx19, Read.val_main_v18_apply, Read.val_main_v17_apply, idx17, v16_eq]
  rfl

end

/-! ## The reference computes G -/

/-- On real arguments the reference's result is the layer's result G, entry by entry. -/
theorem ref_eq_G (X : SX.Idx → EReal) (W : SW.Idx → EReal) (β : SB.Idx → EReal) (v : SV.Idx → EReal)
    (hX : ∀ i, IsReal (X i)) (hW : ∀ i, IsReal (W i)) (hβ : ∀ i, IsReal (β i)) (hv : ∀ i, IsReal (v i)) :
    Read.val_main_v19 (F := Ideal) X W β v = G X W β v := by
  funext i
  obtain ⟨b, d, rfl⟩ : ∃ b d, i = ix2 b d := ⟨i 0, i 1, eq_ix2 i⟩
  rw [v19_eq]
  exact pooled_eq_mean (score X W β v b) (feat X b d) (score_real hX hW hβ hv b) (feat_real hX b d)

end Cert.ReferenceIdeal.RefValue

end
-- ==== Proof.Finite.lean ====
import proofs.«417543_j38482906972715_3_alg».proof.Proof.Gen.Pre_finite_inputs
import proofs.«417543_j38482906972715_3_alg».proof.Proof.LibERealSage
import Idealize.ShloMosaic.Lib.ReduceAll
import Idealize.ShloMosaic.Lib.ValueIdx
import Idealize.ShloMosaic.PureOps.Ideal
import Mathlib.Data.EReal.Basic

/-!
# Finiteness of the inputs, read off the precondition

The precondition is the conjunction, over the four argument arrays, of `all (|x| < +∞)`: each array is
mapped through the absolute value, compared strictly below the f32 pattern `0x7F800000` (which denotes
`+∞`), and the resulting bits are folded by `and` over every axis; the four results are joined by `and`.
If the whole is `1`, every entry `x i` of every array satisfies `max (x i) (-(x i)) < ⊤` in the
extended reals, and an extended real with that property is neither `⊤` nor `⊥`, i.e. it is a real number.
-/

namespace Cert.Hand.Finite

open Idealize.ShloMosaic Cert.Pre_finite_inputs

/-- The rank-0 shape has exactly one index. -/
instance : Subsingleton S_.Idx := ⟨fun a b => funext fun d => d.elim0⟩

/-- The f32 pattern `0x7F800000` (sign 0, exponent all ones, significand 0) denotes `+∞`. -/
theorem ofBits_inf : Ideal.ofBits .f32 0x7F800000#32 = (⊤ : EReal) := by
  simp [Ideal.ofBits, Ideal.ieee]

/-- An extended real whose absolute value `max x (-x)` is strictly below `⊤` is a real number:
    at `x = ⊤` the maximum is `⊤`, at `x = ⊥` it is `-⊥ = ⊤`. -/
theorem isReal_of_abs_lt_top (x : EReal) (h : max x (-x) < ⊤) : Cert.LibERealSage.IsReal x := by
  induction x using EReal.rec with
  | bot => simp at h
  | coe r => exact ⟨r, rfl⟩
  | top => simp at h

/-- One entry of one block of the precondition: if the bit `|x i| < +∞` is set, `x i` is real. -/
theorem isReal_of_bit {s : Shape} (x : FVec Ideal s .f32)
    (hb : S_.BroadcastsInDim s (![] : Fin 0 → Fin s.rank)) (i : s.Idx)
    (h : cmpf .olt (Host.absf x) (broadcastInDim s ![] hb (constant (F := Ideal) S_ .f32 0x7F800000#32)) i = 1#1) :
    Cert.LibERealSage.IsReal (x i) := by
  have h1 : Ideal.cmp .olt (max (x i) (-(x i))) (Ideal.ofBits .f32 0x7F800000#32) = 1#1 := h
  rw [ofBits_inf] at h1
  apply isReal_of_abs_lt_top
  by_contra hn
  simp [Ideal.cmp, hn] at h1

/-- The precondition makes every entry of every argument array a real number. -/
theorem real_of_pre [Cert.Pre_finite_inputs.Facts]
    (x0 : FVec Ideal Cert.Pre_finite_inputs.S32x4096x256 .f32)
    (x1 : FVec Ideal Cert.Pre_finite_inputs.S256x256 .f32)
    (x2 : FVec Ideal Cert.Pre_finite_inputs.S256 .f32)
    (x3 : FVec Ideal Cert.Pre_finite_inputs.S256x1 .f32)
    (h : Cert.Pre_finite_inputs.fn (F := Ideal) x0 x1 x2 x3 = fun _ => 1#1) :
    (∀ i, Cert.LibERealSage.IsReal (x0 i)) ∧ (∀ i, Cert.LibERealSage.IsReal (x1 i)) ∧
      (∀ i, Cert.LibERealSage.IsReal (x2 i)) ∧ (∀ i, Cert.LibERealSage.IsReal (x3 i)) := by
  have h0 := congrFun h ValueIdx.ix0
  dsimp only [fn, fn_part1] at h0
  -- the outer three `and`s: ((all0 ∧ all1) ∧ all2) ∧ all3
  obtain ⟨h012, a3⟩ := IntOp.andi_eq_one.1 h0
  obtain ⟨h01, a2⟩ := IntOp.andi_eq_one.1 h012
  obtain ⟨a0, a1⟩ := IntOp.andi_eq_one.1 h01
  refine ⟨fun i => ?_, fun i => ?_, fun i => ?_, fun i => ?_⟩
  · exact isReal_of_bit x0 _ i (Host.reduce_andi_all _ _ _ _ _ a0 i)
  · exact isReal_of_bit x1 _ i (Host.reduce_andi_all _ _ _ _ _ a1 i)
  · exact isReal_of_bit x2 _ i (Host.reduce_andi_all _ _ _ _ _ a2 i)
  · exact isReal_of_bit x3 _ i (Host.reduce_andi_all _ _ _ _ _ a3 i)

end Cert.Hand.Finite
-- ==== Proof.lean ====
/-
  Attention pooling with an online softmax against the plain softmax: the certificate's claims.

  Both programs compute, for batch row b and feature d,
    (∑ s, exp (σ s − M) · x b s d) / (∑ s, exp (σ s − M)),   σ s = ∑ e, tanh (∑ d, x b s d · W d e + β e) · v e,   M = max σ,
  over the 4096 sequence rows s. The reference takes the maximum, the weights exp (σ s − M) / Z and the weighted
  sum in turn; the kernel walks the sequence in chunks of 512 rows, carrying the running maximum, denominator and
  numerators and rescaling them by exp (old maximum − new maximum) at every chunk, and divides once at the end.
  With every input finite the scores and the features are real, the rescaling steps are exact, and the quotient of
  the sums is the sum of the quotients: the two results are one function G of the arguments (Proof/Spec.lean).
  The kernel's side is Proof/KInv.lean over the frame run, the reference's Proof/RefValue.lean over its run, and
  the finiteness of the inputs is read off the precondition in Proof/Finite.lean. The idealization rewrote nothing.
-/
import proofs.«417543_j38482906972715_3_alg».proof.Defs
import proofs.«417543_j38482906972715_3_alg».proof.Proof.Gen.Kernel
import proofs.«417543_j38482906972715_3_alg».proof.Proof.Gen.Kernel.Skeleton
import proofs.«417543_j38482906972715_3_alg».proof.Proof.Gen.Kernel.Loops
import proofs.«417543_j38482906972715_3_alg».proof.Proof.Gen.Kernel.Launch
import proofs.«417543_j38482906972715_3_alg».proof.Proof.Gen.Kernel.Points
import proofs.«417543_j38482906972715_3_alg».proof.Proof.Gen.Kernel.Frame
import proofs.«417543_j38482906972715_3_alg».proof.Proof.Gen.KernelIdeal
import proofs.«417543_j38482906972715_3_alg».proof.Proof.Gen.KernelIdeal.Skeleton
import proofs.«417543_j38482906972715_3_alg».proof.Proof.Gen.KernelIdeal.Loops
import proofs.«417543_j38482906972715_3_alg».proof.Proof.Gen.KernelIdeal.Launch
import proofs.«417543_j38482906972715_3_alg».proof.Proof.Gen.KernelIdeal.Points
import proofs.«417543_j38482906972715_3_alg».proof.Proof.Gen.KernelIdeal.Frame
import proofs.«417543_j38482906972715_3_alg».proof.Proof.Gen.ReferenceIdeal
import proofs.«417543_j38482906972715_3_alg».proof.Proof.Gen.Pre_finite_inputs
import proofs.«417543_j38482906972715_3_alg».proof.Proof.Gen.KernelIdeal.Value
import proofs.«417543_j38482906972715_3_alg».proof.Proof.Gen.ReferenceIdeal.Run
import proofs.«417543_j38482906972715_3_alg».proof.Proof.Gen.ReferenceIdeal.Read
import proofs.«417543_j38482906972715_3_alg».proof.Proof.KInv
import proofs.«417543_j38482906972715_3_alg».proof.Proof.RefValue
import proofs.«417543_j38482906972715_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at G of the arguments, which are real by the precondition. -/
theorem algebraic : Cert.algebraic_KernelIdeal_ReferenceIdeal := by
  intro m ρ m' ρ' hpre hagree
  have hreal := fun c : Dev Cert.KernelIdeal.nD => Cert.Hand.Finite.real_of_pre _ _ _ _ (hpre c)
  refine ⟨fun c => Cert.Hand.Pool.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Inv.final m c (hreal c).1 (hreal c).2.1 (hreal c).2.2.1 (hreal c).2.2.2),
        (h c).2⟩)
      (Cert.KernelIdeal.Value.run_blocks (F := Ideal) m ρ)
  · refine (θ_run Cert.ReferenceIdeal.defs _ _).mono (fun _ h c => ⟨?_, (h c).2⟩)
      (Cert.ReferenceIdeal.Value.run (F := Ideal) m' ρ')
    have e := (h c).1
    rw [(hagree c).1, (hagree c).2.1, (hagree c).2.2.1, (hagree c).2.2.2] at e
    exact e.trans ((Cert.ReferenceIdeal.Read.val_main_v19_eq (F := Ideal) _ _ _ _).trans
      (Cert.ReferenceIdeal.RefValue.ref_eq_G _ _ _ _ (hreal c).1 (hreal c).2.1 (hreal c).2.2.1 (hreal c).2.2.2))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
